-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x64 : Shape := ⟨3, ![256, 1024, 64]⟩
abbrev S256x1024 : Shape := ⟨2, ![256, 1024]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S256x1024x64 : S_.BroadcastsInDim S256x1024x64 (![] : Fin 0 → Fin S256x1024x64.rank)
  reducesTo_S256x1024x64_S_d0_1_2 : S256x1024x64.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S256x128 .f32) (main_arg13 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S256x128 .f32) (main_arg13 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x128 .f32) (main_arg13 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S256x1024x64 .f32) (main_arg1 : IVec S256x1024 1) (main_arg2 : FVec F S64x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x128 .f32) (main_arg13 : FVec F S128 .f32) : IVec S_ 1 :=
  let main_v0 : FVec F S256x1024x64 .f32 := Host.absf main_arg0
  let main_cst : FVec F S_ .f32 := constant S_ .f32 0x7F800000#32
  let main_v1 : FVec F S256x1024x64 .f32 := broadcastInDim S256x1024x64 ![] bcast_S_S256x1024x64 main_cst
  let main_v2 : IVec S256x1024x64 1 := cmpf .olt main_v0 main_v1
  let main_c : IVec S_ 1 := constantI S_ 1 1#1
  let main_v3 : IVec S_ 1 := (fun x v => Host.reduce IntOp.andi x v reducesTo_S256x1024x64_S_d0_1_2 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S256x1024x64 : Shape := ⟨3, ![256, 1024, 64]⟩
abbrev S256x1024 : Shape := ⟨2, ![256, 1024]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S256x1024x1 : Shape := ⟨3, ![256, 1024, 1]⟩
abbrev S1x256 : Shape := ⟨2, ![1, 256]⟩
abbrev S1x128 : Shape := ⟨2, ![1, 128]⟩
abbrev S32x256x64 : Shape := ⟨3, ![32, 256, 64]⟩
abbrev S32x256x1 : Shape := ⟨3, ![32, 256, 1]⟩
abbrev S32x128 : Shape := ⟨2, ![32, 128]⟩
abbrev S32x256 : Shape := ⟨2, ![32, 256]⟩
abbrev S8192x64 : Shape := ⟨2, ![8192, 64]⟩
abbrev S8192x256 : Shape := ⟨2, ![8192, 256]⟩
abbrev S32x256x256 : Shape := ⟨3, ![32, 256, 256]⟩
abbrev S_ : Shape := ⟨0, ![]⟩
abbrev S256x1 : Shape := ⟨2, ![256, 1]⟩

abbrev nBuf : Space → Nat
  | .hbm => 30
  | .vmem => 19
  | .smem => 0
  | _ => 0

abbrev bufTy : (tb : Table) → Fin (tcTables nBuf tb) → BufTy
  | .hbm, ⟨0, _⟩ => ⟨S256x1024x64, .f32⟩
  | .hbm, ⟨1, _⟩ => ⟨S256x1024, .i1⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S256x1024, .f32⟩
  | .hbm, ⟨15, _⟩ => ⟨S256x1024x1, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x128, .f32⟩
  | .hbm, ⟨22, _⟩ => ⟨S256x128, .f32⟩
  | .hbm, ⟨23, _⟩ => ⟨S_, .i1⟩
  | .hbm, ⟨24, _⟩ => ⟨S256, .i1⟩
  | .hbm, ⟨25, _⟩ => ⟨S256x1, .i1⟩
  | .hbm, ⟨26, _⟩ => ⟨S_, .f32⟩
  | .hbm, ⟨27, _⟩ => ⟨S256x128, .i1⟩
  | .hbm, ⟨28, _⟩ => ⟨S256x128, .f32⟩
  | .hbm, ⟨29, _⟩ => ⟨S256x128, .f32⟩
  | .local _ .vmem, ⟨0, _⟩ => ⟨S32x256x64, .f32⟩
  | .local _ .vmem, ⟨1, _⟩ => ⟨S32x256x64, .f32⟩
  | .local _ .vmem, ⟨2, _⟩ => ⟨S32x256x1, .f32⟩
  | .local _ .vmem, ⟨3, _⟩ => ⟨S32x256x1, .f32⟩
  | .local _ .vmem, ⟨4, _⟩ => ⟨S64x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S32x128, .f32⟩
  | .local _ .vmem, ⟨17, _⟩ => ⟨S32x128, .f32⟩
  | .local _ .vmem, ⟨18, _⟩ => ⟨S32x256, .f32⟩
  | _, _ => ⟨S256x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_27 : BitVec 32 := 0#32
  let v46 : BitVec 1 := Scalar.cmpi .ne v45 c0_i32_27
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  bcast_S256x1024_S256x1024x1_0_1 : S256x1024.BroadcastsInDim S256x1024x1 (![0, 1] : Fin 2 → Fin S256x1024x1.rank)
  shapeCasts_S256_S1x256 : S256.ShapeCasts S1x256
  shapeCasts_S128_S1x128 : S128.ShapeCasts S1x128
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x256x64_S32x256x64_0_0_0 : ∀ a, (![0, 0, 0] : Fin 3 → Nat) a + S32x256x64.size a ≤ S32x256x64.size a
  h_S32x256x64 : 0 < S32x256x64.numel
  shapeCasts_S32x256x64_S8192x64 : S32x256x64.ShapeCasts S8192x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  shapeCasts_S8192x256_S32x256x256 : S8192x256.ShapeCasts S32x256x256
  inb_S32x256x1_S32x256x1_0_0_0 : ∀ a, (![0, 0, 0] : Fin 3 → Nat) a + S32x256x1.size a ≤ S32x256x1.size a
  h_S32x256x1 : 0 < S32x256x1.numel
  shapeCasts_S32x256x1_S32x256x1 : S32x256x1.ShapeCasts S32x256x1
  broadcasts_S32x256x1_S32x256x256 : S32x256x1.Broadcasts S32x256x256
  reduces_S32x256x256_S32x256 : S32x256x256.Reduces [1] S32x256
  broadcasts_S1x256_S32x256 : S1x256.Broadcasts S32x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  reducesTo_S256x1024_S256_d1 : S256x1024.ReducesTo [1] S256
  h_S_ : 0 < S_.numel
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S_S256x128 : S_.BroadcastsInDim S256x128 (![] : Fin 0 → Fin S256x128.rank)
  dot_S8192x64_S64x256_S8192x256_1_0_0_1_n_n_wf : DotDims.WF S8192x64 S64x256 S8192x256 [1] [0] [0] [1] [] []
  dot_S8192x256_S256x256_S8192x256_1_0_0_1_n_n_wf : DotDims.WF S8192x256 S256x256 S8192x256 [1] [0] [0] [1] [] []
  dot_S32x256_S256x256_S32x256_1_0_0_1_n_n_wf : DotDims.WF S32x256 S256x256 S32x256 [1] [0] [0] [1] [] []
  dot_S32x256_S256x128_S32x128_1_0_0_1_n_n_wf : DotDims.WF S32x256 S256x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x64.size a ≤ S256x1024x64.size a
  hwx0_0 : ∀ i : grid0.Coords, EltTy.bits .f32 = 32 ∨ (Rect.block (s := S256x1024x64) S32x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x1.size a ≤ S256x1024x1.size a
  hwx0_1 : ∀ i : grid0.Coords, EltTy.bits .f32 = 32 ∨ (Rect.block (s := S256x1024x1) S32x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S256x128.size a
  hwx0_12 : ∀ i : grid0.Coords, EltTy.bits .f32 = 32 ∨ (Rect.block (s := S256x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x128.size a ≤ S256x128.size a
  hwx0_14 : ∀ i : grid0.Coords, EltTy.bits .f32 = 32 ∨ (Rect.block (s := S256x128) S32x128.size (cc0_transform_14 i) (hinb0_14 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf

abbrev win0_0 : Pipeline.Window sig grid0 :=
  Pipeline.Window.ofSpec (Memref.whole main_arg0) S32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S32x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S256x1024x64 : Shape := ⟨3, ![256, 1024, 64]⟩
abbrev S256x1024 : Shape := ⟨2, ![256, 1024]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S256x1024x256 : Shape := ⟨3, ![256, 1024, 256]⟩
abbrev S1x1x256 : Shape := ⟨3, ![1, 1, 256]⟩
abbrev S_ : Shape := ⟨0, ![]⟩
abbrev S256x1024x1 : Shape := ⟨3, ![256, 1024, 1]⟩
abbrev S1x256 : Shape := ⟨2, ![1, 256]⟩
abbrev S1x128 : Shape := ⟨2, ![1, 128]⟩
abbrev S256x1 : Shape := ⟨2, ![256, 1]⟩

abbrev nBuf : Space → Nat
  | .hbm => 63
  | .vmem => 0
  | .smem => 0
  | _ => 0

abbrev bufTy : (tb : Table) → Fin (tcTables nBuf tb) → BufTy
  | .hbm, ⟨0, _⟩ => ⟨S256x1024x64, .f32⟩
  | .hbm, ⟨1, _⟩ => ⟨S256x1024, .i1⟩
  | .hbm, ⟨2, _⟩ => ⟨S64x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S256x1024x256, .f32⟩
  | .hbm, ⟨15, _⟩ => ⟨S1x1x256, .f32⟩
  | .hbm, ⟨16, _⟩ => ⟨S256x1024x256, .f32⟩
  | .hbm, ⟨17, _⟩ => ⟨S256x1024x256, .f32⟩
  | .hbm, ⟨18, _⟩ => ⟨S_, .f32⟩
  | .hbm, ⟨19, _⟩ => ⟨S256x1024x256, .f32⟩
  | .hbm, ⟨20, _⟩ => ⟨S256x1024x256, .f32⟩
  | .hbm, ⟨21, _⟩ => ⟨S256x1024x256, .f32⟩
  | .hbm, ⟨22, _⟩ => ⟨S1x1x256, .f32⟩
  | .hbm, ⟨23, _⟩ => ⟨S256x1024x256, .f32⟩
  | .hbm, ⟨24, _⟩ => ⟨S256x1024x256, .f32⟩
  | .hbm, ⟨25, _⟩ => ⟨S_, .f32⟩
  | .hbm, ⟨26, _⟩ => ⟨S256x1024x256, .f32⟩
  | .hbm, ⟨27, _⟩ => ⟨S256x1024x256, .f32⟩
  | .hbm, ⟨28, _⟩ => ⟨S256x1024x256, .f32⟩
  | .hbm, ⟨29, _⟩ => ⟨S1x1x256, .f32⟩
  | .hbm, ⟨30, _⟩ => ⟨S256x1024x256, .f32⟩
  | .hbm, ⟨31, _⟩ => ⟨S256x1024x256, .f32⟩
  | .hbm, ⟨32, _⟩ => ⟨S256x1024, .f32⟩
  | .hbm, ⟨33, _⟩ => ⟨S256x1024x1, .f32⟩
  | .hbm, ⟨34, _⟩ => ⟨S256x1024x256, .f32⟩
  | .hbm, ⟨35, _⟩ => ⟨S256x1024x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S1x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S1x256, .f32⟩
  | .hbm, ⟨47, _⟩ => ⟨S256x256, .f32⟩
  | .hbm, ⟨48, _⟩ => ⟨S256x256, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S256x128, .f32⟩
  | .hbm, ⟨53, _⟩ => ⟨S1x128, .f32⟩
  | .hbm, ⟨54, _⟩ => ⟨S256x128, .f32⟩
  | .hbm, ⟨55, _⟩ => ⟨S256x128, .f32⟩
  | .hbm, ⟨56, _⟩ => ⟨S_, .i1⟩
  | .hbm, ⟨57, _⟩ => ⟨S256, .i1⟩
  | .hbm, ⟨58, _⟩ => ⟨S256x1, .i1⟩
  | .hbm, ⟨59, _⟩ => ⟨S_, .f32⟩
  | .hbm, ⟨60, _⟩ => ⟨S256x128, .i1⟩
  | .hbm, ⟨61, _⟩ => ⟨S256x128, .f32⟩
  | .hbm, ⟨62, _⟩ => ⟨S256x128, .f32⟩
  | _, _ => ⟨S256x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call3_cst : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_v35 : Ref sig .tc := ⟨.hbm, 62, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S256x1024x256_0_1_2 : S1x1x256.BroadcastsInDim S256x1024x256 (![0, 1, 2] : Fin 3 → Fin S256x1024x256.rank)
  bcast_S_S256x1024x256 : S_.BroadcastsInDim S256x1024x256 (![] : Fin 0 → Fin S256x1024x256.rank)
  bcast_S256x1024_S256x1024x1_0_1 : S256x1024.BroadcastsInDim S256x1024x1 (![0, 1] : Fin 2 → Fin S256x1024x1.rank)
  bcast_S256x1024x1_S256x1024x256_0_1_2 : S256x1024x1.BroadcastsInDim S256x1024x256 (![0, 1, 2] : Fin 3 → Fin S256x1024x256.rank)
  reducesTo_S256x1024x256_S256x256_d1 : S256x1024x256.ReducesTo [1] S256x256
  h_S_ : 0 < S_.numel
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  reducesTo_S256x1024_S256_d1 : S256x1024.ReducesTo [1] S256
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S_S256x128 : S_.BroadcastsInDim S256x128 (![] : Fin 0 → Fin S256x128.rank)
  dot_S256x1024x64_S64x256_S256x1024x256_2_0_01_1_n_n_wf : DotDims.WF S256x1024x64 S64x256 S256x1024x256 [2] [0] [0, 1] [1] [] []
  dot_S256x1024x256_S256x256_S256x1024x256_2_0_01_1_n_n_wf : DotDims.WF S256x1024x256 S256x256 S256x1024x256 [2] [0] [0, 1] [1] [] []
  dot_S256x256_S256x256_S256x256_1_0_0_1_n_n_wf : DotDims.WF S256x256 S256x256 S256x256 [1] [0] [0] [1] [] []
  dot_S256x256_S256x128_S256x128_1_0_0_1_n_n_wf : DotDims.WF S256x256 S256x128 S256x128 [1] [0] [0] [1] [] []

variable [Facts₀]

def dot_S256x1024x64_S64x256_S256x1024x256_2_0_01_1_n_n : DotDims S256x1024x64 S64x256 S256x1024x256 where
  lhsContracting := [2]
  rhsContracting := [0]
  lhsNonContracting := [0, 1]
  rhsNonContracting := [1]
  lhsBatch := []
  rhsBatch := []
  wf := dot_S256x1024x64_S64x256_S256x1024x256_2_0_01_1_n_n_wf
def dot_S256x1024x256_S256x256_S256x1024x256_2_0_01_1_n_n : DotDims S256x1024x256 S256x256 S256x1024x256 where
  lhsContracting := [2]
  rhsContracting := [0]
  lhsNonContracting := [0, 1]
  rhsNonContracting := [1]
  lhsBatch := []
  rhsBatch := []
  wf := dot_S256x1024x256_S256x256_S256x1024x256_2_0_01_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

class Facts : Prop extends Facts₀ where

variable [Facts]
-- ==== Proof.Spec.lean ====
/-
  The function both programs compute, over the extended reals, written once and row by row.

  A set of 1024 elements per batch row, each a vector of 64 numbers, goes through a three-layer perceptron (two of its
  layers followed by max(·, 0)) to a vector of 256; each element's vector is multiplied by that element's mask value and
  the 1024 masked vectors are added; the sum goes through a second three-layer perceptron to 128 numbers.
  An affine layer on a row v is h ↦ (∑ d, v d · w d h) + b h. Nothing here needs a finite value: the only laws used
  later are that a sum may be regrouped and that 0 + x = x.
-/
import Idealize.ShloMosaic.Lib.ValueIdx

noncomputable section

open scoped BigOperators

namespace Cert.DeepSet

open Idealize.ShloMosaic Idealize.ShloMosaic.ValueIdx

/-- One affine layer applied to a row: h ↦ (∑ d, v d · w d h) + b h. -/
def affine {D H : ℕ} (w : Fin D → Fin H → EReal) (b : Fin H → EReal) (v : Fin D → EReal) : Fin H → EReal :=
  fun h => (∑ d : Fin D, v d * w d h) + b h

/-- max(·, 0), entry by entry. -/
def relu {H : ℕ} (v : Fin H → EReal) : Fin H → EReal := fun h => max (v h) 0

/-- Three affine layers, max(·, 0) after the first two. -/
def mlp3 {D H₁ H₂ O : ℕ} (w1 : Fin D → Fin H₁ → EReal) (b1 : Fin H₁ → EReal) (w2 : Fin H₁ → Fin H₂ → EReal)
    (b2 : Fin H₂ → EReal) (w3 : Fin H₂ → Fin O → EReal) (b3 : Fin O → EReal) (v : Fin D → EReal) : Fin O → EReal :=
  affine w3 b3 (relu (affine w2 b2 (relu (affine w1 b1 v))))

/-- The twelve weight and bias arrays, as functions of their coordinates. -/
structure Params where
  pw1 : Fin 64 → Fin 256 → EReal
  pb1 : Fin 256 → EReal
  pw2 : Fin 256 → Fin 256 → EReal
  pb2 : Fin 256 → EReal
  pw3 : Fin 256 → Fin 256 → EReal
  pb3 : Fin 256 → EReal
  rw1 : Fin 256 → Fin 256 → EReal
  rb1 : Fin 256 → EReal
  rw2 : Fin 256 → Fin 256 → EReal
  rb2 : Fin 256 → EReal
  rw3 : Fin 256 → Fin 128 → EReal
  rb3 : Fin 128 → EReal

/-- The per-element network: 64 → 256 → 256 → 256. -/
def phi (P : Params) (v : Fin 64 → EReal) : Fin 256 → EReal := mlp3 P.pw1 P.pb1 P.pw2 P.pb2 P.pw3 P.pb3 v

/-- The network on the pooled vector: 256 → 256 → 256 → 128. -/
def rho (P : Params) (p : Fin 256 → EReal) : Fin 128 → EReal := mlp3 P.rw1 P.rb1 P.rw2 P.rb2 P.rw3 P.rb3 p

/-- A matrix array as a function of row and column. -/
def mat {a b : ℕ} (W : (⟨2, ![a, b]⟩ : Shape).Idx → EReal) : Fin a → Fin b → EReal := fun i j => W (ix2 i j)

/-- A vector array as a function of its coordinate. -/
def vec {n : ℕ} (B : (⟨1, ![n]⟩ : Shape).Idx → EReal) : Fin n → EReal := fun j => B (ix1 j)

/-- A one-row matrix array as a function of its column. -/
def rowvec {n : ℕ} (B : (⟨2, ![1, n]⟩ : Shape).Idx → EReal) : Fin n → EReal := fun j => B (ix2 (0 : Fin 1) j)

/-- Element n of batch row b, masked: phi of its 64 numbers at output k, times the mask value of (b, n). -/
def term (P : Params) (X : (⟨3, ![256, 1024, 64]⟩ : Shape).Idx → EReal) (M : (⟨2, ![256, 1024]⟩ : Shape).Idx → EReal)
    (b : Fin 256) (k : Fin 256) (n : Fin 1024) : EReal :=
  phi P (fun d => X (ix3 b n d)) k * M (ix2 b n)

/-- The pooled vector of batch row b: the masked elements added. -/
def pooled (P : Params) (X : (⟨3, ![256, 1024, 64]⟩ : Shape).Idx → EReal) (M : (⟨2, ![256, 1024]⟩ : Shape).Idx → EReal)
    (b : Fin 256) : Fin 256 → EReal := fun k => ∑ n : Fin 1024, term P X M b k n

/-- The result before the empty-row test, as an array [256, 128]. -/
def result (P : Params) (X : (⟨3, ![256, 1024, 64]⟩ : Shape).Idx → EReal) (M : (⟨2, ![256, 1024]⟩ : Shape).Idx → EReal) :
    (⟨2, ![256, 128]⟩ : Shape).Idx → EReal := fun i => rho P (pooled P X M (i 0)) (i 1)

/-- Position q of tile j among 1024 positions cut into 4 tiles of 256. -/
def tilePos (j : Fin 4) (q : Fin 256) : Fin 1024 := ⟨256 * j.val + q.val, by have := j.isLt; have := q.isLt; omega⟩

/-- A sum over 1024 positions is the sum over the 4 tiles of the sums inside each tile. -/
theorem sum_tiles {M : Type*} [AddCommMonoid M] (f : Fin 1024 → M) :
    ∑ n : Fin 1024, f n = ∑ j : Fin 4, ∑ q : Fin 256, f (tilePos j q) := by
  have e : ∑ n : Fin 1024, f n = ∑ x : Fin 4 × Fin 256, f (finProdFinEquiv x) :=
    (Equiv.sum_comp (finProdFinEquiv (m := 4) (n := 256)) f).symm
  rw [e, Fintype.sum_prod_type]
  refine Finset.sum_congr rfl fun j _ => Finset.sum_congr rfl fun q _ => congrArg f (Fin.ext ?_)
  show q.val + 256 * j.val = 256 * j.val + q.val
  omega

end Cert.DeepSet

end
-- ==== Proof.LibRank3.lean ====
/-
  Rank-3 layouts read at indices written by coordinates.

  A block [a, b, d] flattened to a matrix [a·b, d] keeps its entries: row p·b + q of the matrix is row (p, q) of the
  block, and the other way round. A block [a, b, 1] broadcast along its unit axis to [a, b, c] reads, at (p, q, k),
  the block at (p, q, 0). A float sum of a block [a, b, c] over its middle axis reads, at (p, k), the entries
  (p, q, k) for every q, added. Every statement is generic in the extents.
-/
import Idealize.ShloMosaic.Lib.ValueLayout
import Idealize.ShloMosaic.PureOps.Ideal.Laws

noncomputable section

open scoped BigOperators

namespace Cert.LibRank3

open Idealize.ShloMosaic Idealize.ShloMosaic.ValueIdx

variable {α : Type}

/-- A block [a, b, d] cast to a matrix [n, d], n = a·b, reads at (r, e), r = p·b + q, the block at (p, q, e). -/
theorem cast_flatten {a b d n : ℕ} (x : (⟨3, ![a, b, d]⟩ : Shape).Idx → α)
    (h : (⟨3, ![a, b, d]⟩ : Shape).ShapeCasts ⟨2, ![n, d]⟩) (p : Fin a) (q : Fin b) (e : Fin d) (r : Fin n)
    (hr : r.val = p.val * b + q.val) : shapeCast ⟨2, ![n, d]⟩ x h (ix2 r e) = x (ix3 p q e) :=
  shapeCast_apply x h _ _ (by
    rw [Shape.rowMajor_val_three, Shape.rowMajor_val_two]
    show (p.val * b + q.val) * d + e.val = r.val * d + e.val
    rw [hr])

/-- A matrix [n, d], n = a·b, cast to a block [a, b, d] reads at (p, q, e) the matrix at (r, e), r = p·b + q. -/
theorem cast_unflatten {a b d n : ℕ} (x : (⟨2, ![n, d]⟩ : Shape).Idx → α)
    (h : (⟨2, ![n, d]⟩ : Shape).ShapeCasts ⟨3, ![a, b, d]⟩) (p : Fin a) (q : Fin b) (e : Fin d) (r : Fin n)
    (hr : r.val = p.val * b + q.val) : shapeCast ⟨3, ![a, b, d]⟩ x h (ix3 p q e) = x (ix2 r e) :=
  shapeCast_apply x h _ _ (by
    rw [Shape.rowMajor_val_three, Shape.rowMajor_val_two]
    show r.val * d + e.val = (p.val * b + q.val) * d + e.val
    rw [hr])

/-- A block [a, b, 1] broadcast to [a, b, c] reads, at (p, q, k), the block at (p, q, 0). -/
theorem bcast_unit_last {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Over (p, k) of a block, the index a middle-axis reduction inserts coordinate q into is (p, q, k). -/
theorem lift_mid {a b c : ℕ} (h : (⟨3, ![a, b, c]⟩ : Shape).Reduces [1] ⟨2, ![a, c]⟩) (p : Fin a) (k : Fin c) (q : Fin b) :
    h.lift (ix2 p k) q = ix3 p q k :=
  funext fun ax => Fin.ext (match ax with | ⟨0, _⟩ => rfl | ⟨1, _⟩ => rfl | ⟨2, _⟩ => rfl)

/-- A float sum of a block over its middle axis, at (p, k), is the sum over q of the block at (p, q, k). -/
theorem sum_mid {a b c : ℕ} (src : FVec Ideal ⟨3, ![a, b, c]⟩ .f32) (h : (⟨3, ![a, b, c]⟩ : Shape).Reduces [1] ⟨2, ![a, c]⟩)
    (hφ : FKind.Formats .f32) (hacc : (0x00000000#32 : BitVec 32) = FKind.add.neutral .f32 hφ) (p : Fin a) (k : Fin c) :
    multiReduction .add [1] ⟨2, ![a, c]⟩ src 0x00000000#32 h hφ hacc (ix2 p k) = ∑ q : Fin b, src (ix3 p q k) :=
  (Ideal.multiReduction_add_single src _ h hφ hacc (ix2 p k)).trans
    (Finset.sum_congr rfl fun q _ => congrArg src (lift_mid h p k q))

end Cert.LibRank3

end
-- ==== Proof.LibDense.lean ====
/-
  A dense layer built from a matrix product into zero and a broadcast bias row, read row by row.

  A plain matrix product into a zero accumulator reads, at (r, c), the sum over k of lhs (r, k) · rhs (k, c). Adding a
  one-row bias broadcast over the rows gives, on row r, the affine layer of the specification applied to row r of the
  operand; the narrowing of either operand to a shorter float format changes nothing over the extended reals. A maximum
  with a splat of the zero word is max(·, 0) on every row. Row p·b + q of a flattened block [a, b, d] is the block's
  fibre (p, q, ·). Every statement is generic in the extents.
-/
import proofs.«180472_j747324309661_1_alg».proof.Proof.Spec
import proofs.«180472_j747324309661_1_alg».proof.Proof.LibRank3

noncomputable section

open scoped BigOperators

namespace Cert.LibDense

open Idealize.ShloMosaic Idealize.ShloMosaic.ValueIdx Cert.DeepSet

/-- Row r of a matrix, as a function of the column. -/
def row {M K : ℕ} (a : (⟨2, ![M, K]⟩ : Shape).Idx → EReal) (r : Fin M) : Fin K → EReal := fun k => a (ix2 r k)

/-- A plain matrix product into the zero splat, at (r, c): the sum over k of lhs (r, k) · rhs (k, c). -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- Row r of a dense layer — the product of the narrowed operands into zero, plus the one-row bias broadcast over the
    rows — is the affine layer applied to row r of the operand. The dimension record is any one equal to the plain one. -/
theorem row_dense {M K N : ℕ} (D : DotDims ⟨2, ![M, K]⟩ ⟨2, ![K, N]⟩ ⟨2, ![M, N]⟩) (hD : D = DotDims.plain M K N)
    (a : FVec Ideal ⟨2, ![M, K]⟩ .f32) (w : FVec Ideal ⟨2, ![K, N]⟩ .f32) (b : FVec Ideal ⟨2, ![1, N]⟩ .f32)
    (h1 : (FTy.bf16).bits < (FTy.f32).bits) (h2 : (FTy.bf16).bits < (FTy.f32).bits)
    (hc : (⟨2, ![1, N]⟩ : Shape).ShapeCasts ⟨2, ![1, N]⟩) (hb : (⟨2, ![1, N]⟩ : Shape).Broadcasts ⟨2, ![M, N]⟩) (r : Fin M) :
    row (addf (matmul D none (truncf .bf16 a h1) (truncf .bf16 w h2) (constant ⟨2, ![M, N]⟩ .f32 0x00000000#32))
        (broadcastTo ⟨2, ![M, N]⟩ (shapeCast ⟨2, ![1, N]⟩ b hc) hb)) r
      = affine (mat w) (rowvec b) (row a r) := by
  subst hD
  funext c
  show matmul (DotDims.plain M K N) none (truncf .bf16 a h1) (truncf .bf16 w h2) (constant ⟨2, ![M, N]⟩ .f32 0x00000000#32) (ix2 r c)
      + broadcastTo ⟨2, ![M, N]⟩ (shapeCast ⟨2, ![1, N]⟩ b hc) hb (ix2 r c) = _
  rw [matmul_plain_apply, broadcastTo_1b_ab_apply, shapeCast_self]
  rfl

/-- Row r of a maximum with the splat of the zero word is max(·, 0) of row r. -/
theorem row_relu {M N : ℕ} (x : FVec Ideal ⟨2, ![M, N]⟩ .f32) (r : Fin M) :
    row (maximumf x (broadcast ⟨2, ![M, N]⟩ (Scalar.ofBits (F := Ideal) .f32 0x00000000#32))) r = relu (row x r) := by
  funext c
  show max (x (ix2 r c)) (Ideal.ofBits .f32 0x00000000#32) = max (x (ix2 r c)) 0
  rw [Ideal.ofBits_zero_f32]

/-- Row r = p·b + q of a block [a, b, d] flattened to [n, d] is the block's fibre at (p, q). -/
theorem row_flatten {a b d n : ℕ} (x : (⟨3, ![a, b, d]⟩ : Shape).Idx → EReal)
    (h : (⟨3, ![a, b, d]⟩ : Shape).ShapeCasts ⟨2, ![n, d]⟩) (p : Fin a) (q : Fin b) (r : Fin n)
    (hr : r.val = p.val * b + q.val) : row (shapeCast ⟨2, ![n, d]⟩ x h) r = fun e => x (ix3 p q e) :=
  funext fun e => LibRank3.cast_flatten x h p q e r hr

end Cert.LibDense

end
-- ==== Proof.Payload.lean ====
/-
  The four values the kernel body stores, read at an index over the extended reals.

  The block's per-element network output at (p, q, k) is the specification's three-layer network applied to the 64
  numbers of element (p, q) of the block, at output k. The accumulator update at (p, k) is the old accumulator there plus
  the sum over the block's 256 elements q of the network output (p, q, k) times the mask value (p, q, 0). The reset value
  is zero. The output block at (p, o) is the second network applied to row p of the accumulator, at output o.
-/
import proofs.«180472_j747324309661_1_alg».proof.Proof.Gen.KernelIdeal.Skeleton
import proofs.«180472_j747324309661_1_alg».proof.Proof.LibDense

noncomputable section

open scoped BigOperators

namespace Cert.KernelIdeal.Payload

open Idealize.ShloMosaic Idealize.ShloMosaic.ValueIdx Cert.KernelIdeal Cert.KernelIdeal.Gen Cert.DeepSet Cert.LibDense

/-- The row of the flattened block [8192, ·] that holds element (p, q) of the block [32, 256, ·]. -/
def flat (p : Fin 32) (q : Fin 256) : Fin 8192 :=
  ⟨p.val * 256 + q.val, by have := p.isLt; have := q.isLt; omega⟩

/-- A dense layer at (r, c): the affine layer applied to row r of the operand, at output c. -/
theorem dense_apply {M K N : ℕ} (D : DotDims ⟨2, ![M, K]⟩ ⟨2, ![K, N]⟩ ⟨2, ![M, N]⟩) (hD : D = DotDims.plain M K N)
    (a : FVec Ideal ⟨2, ![M, K]⟩ .f32) (w : FVec Ideal ⟨2, ![K, N]⟩ .f32) (b : FVec Ideal ⟨2, ![1, N]⟩ .f32)
    (h1 : (FTy.bf16).bits < (FTy.f32).bits) (h2 : (FTy.bf16).bits < (FTy.f32).bits)
    (hc : (⟨2, ![1, N]⟩ : Shape).ShapeCasts ⟨2, ![1, N]⟩) (hb : (⟨2, ![1, N]⟩ : Shape).Broadcasts ⟨2, ![M, N]⟩) (r : Fin M) (c : Fin N) :
    addf (matmul D none (truncf .bf16 a h1) (truncf .bf16 w h2) (constant ⟨2, ![M, N]⟩ .f32 0x00000000#32))
        (broadcastTo ⟨2, ![M, N]⟩ (shapeCast ⟨2, ![1, N]⟩ b hc) hb) (ix2 r c)
      = affine (mat w) (rowvec b) (row a r) c :=
  congrFun (row_dense D hD a w b h1 h2 hc hb r) c

/-- The per-element network on a block, at (p, q, k). -/
theorem phi_block (x0 : Vec Ideal S32x256x64 .f32) (x2 : Vec Ideal S64x256 .f32) (x3 : Vec Ideal S1x256 .f32)
    (x4 : Vec Ideal S256x256 .f32) (x5 : Vec Ideal S1x256 .f32) (x6 : Vec Ideal S256x256 .f32) (x7 : Vec Ideal S1x256 .f32)
    (p : Fin 32) (q : Fin 256) (k : Fin 256) :
    k0_pay4 (F := Ideal) x0 x2 x3 x4 x5 x6 x7 (ix3 p q k)
      = mlp3 (mat x2) (rowvec x3) (mat x4) (rowvec x5) (mat x6) (rowvec x7) (fun d => x0 (ix3 p q d)) k := by
  unfold k0_pay4
  refine (LibRank3.cast_unflatten _ _ p q k (flat p q) rfl).trans ?_
  rw [dense_apply, row_relu, row_dense, row_relu, row_dense, row_flatten _ _ p q (flat p q) rfl]
  all_goals rfl

/-- The accumulator update, at (p, k). -/
theorem accum_apply (v33 : FVec Ideal S32x256x256 .f32) (v34 : Vec Ideal S32x256x1 .f32) (v38 : Vec Ideal S32x256 .f32)
    (p : Fin 32) (k : Fin 256) :
    k0_pay1 (F := Ideal) v33 v34 v38 (ix2 p k)
      = v38 (ix2 p k) + ∑ q : Fin 256, v33 (ix3 p q k) * v34 (ix3 p q (0 : Fin 1)) := by
  unfold k0_pay1
  rw [shapeCast_self]
  show v38 (ix2 p k) + multiReduction .add [1] S32x256 (mulf v33 (broadcastTo S32x256x256 (shapeCast S32x256x1 v34 _) _))
      0x00000000#32 _ _ _ (ix2 p k) = _
  refine congrArg (v38 (ix2 p k) + ·) ((LibRank3.sum_mid _ _ _ _ p k).trans (Finset.sum_congr rfl fun q _ => ?_))
  show v33 (ix3 p q k) * broadcastTo S32x256x256 (shapeCast S32x256x1 v34 _) _ (ix3 p q k) = _
  rw [LibRank3.bcast_unit_last, shapeCast_self]

/-- The reset value is zero everywhere. -/
theorem zero_apply (i : S32x256.Idx) : k0_pay3 (F := Ideal) i = 0 := by
  unfold k0_pay3
  rw [shapeCast_self]
  exact Ideal.ofBits_zero_f32

/-- The second network on the accumulator, at (p, o). -/
theorem rho_block (v47 : Vec Ideal S32x256 .f32) (v49 : Vec Ideal S256x256 .f32) (v52 : Vec Ideal S1x256 .f32)
    (v58 : Vec Ideal S256x256 .f32) (v62 : Vec Ideal S1x256 .f32) (v68 : Vec Ideal S256x128 .f32) (v72 : Vec Ideal S1x128 .f32)
    (p : Fin 32) (o : Fin 128) :
    k0_pay2 (F := Ideal) v47 v49 v52 v58 v62 v68 v72 (ix2 p o)
      = mlp3 (mat v49) (rowvec v52) (mat v58) (rowvec v62) (mat v68) (rowvec v72) (row v47 p) o := by
  unfold k0_pay2
  rw [dense_apply, row_relu, row_dense, row_relu, row_dense]
  all_goals rfl

end Cert.KernelIdeal.Payload

end
-- ==== Proof.Blocks.lean ====
/-
  What the kernel body is handed at a grid point, in terms of the arrays the program was launched with.

  Grid point t = 4·i + j works on batch rows 32·i … 32·i + 31 and on set elements 256·j … 256·j + 255: its block of x is
  x at (32·i + p, 256·j + q, ·), its block of the mask likewise; every weight matrix and bias row is handed over whole.
  The mask array the region reads is the boolean mask converted to a float with a unit axis appended; a bias row is the
  bias vector with a unit axis put in front. So one run of the body adds to the accumulator, at (p, k), the specification's
  masked terms of batch row 32·i + p over tile j of the set, and the second network on the accumulator is the
  specification's second network with the launch parameters.
-/
import proofs.«180472_j747324309661_1_alg».proof.Proof.Gen.KernelIdeal.Frame
import proofs.«180472_j747324309661_1_alg».proof.Proof.Payload
import Idealize.ShloMosaic.Lib.Pipeline.Value
import Idealize.ShloMosaic.Lib.StableHlo.Run
import Idealize.ShloMosaic.Lib.Tactic

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen Cert.DeepSet Cert.LibDense

variable (m : (ℓ : Loc nD τ sig) → Buf (Elt Ideal) ℓ)

theorem N32 : cfg0.N = 32 := N_0

/-- The batch row that row p of point t's blocks is. -/
def brow (t : Fin cfg0.N) (p : Fin 32) : Fin 256 :=
  ⟨32 * (t.val / 4) + p.val, by have h32 : t.val < 32 := lt_of_lt_of_eq t.isLt (N32); have := p.isLt; omega⟩

/-- The tile of the set that point t works on. -/
def tile (t : Fin cfg0.N) : Fin 4 := ⟨t.val % 4, Nat.mod_lt _ (by decide)⟩

/-- The launch parameters, as the specification's. -/
def kparams (c : Dev nD) : Params :=
  ⟨mat (m ((c : Thread nD τ).loc main_arg2)), vec (m ((c : Thread nD τ).loc main_arg3)),
   mat (m ((c : Thread nD τ).loc main_arg4)), vec (m ((c : Thread nD τ).loc main_arg5)),
   mat (m ((c : Thread nD τ).loc main_arg6)), vec (m ((c : Thread nD τ).loc main_arg7)),
   mat (m ((c : Thread nD τ).loc main_arg8)), vec (m ((c : Thread nD τ).loc main_arg9)),
   mat (m ((c : Thread nD τ).loc main_arg10)), vec (m ((c : Thread nD τ).loc main_arg11)),
   mat (m ((c : Thread nD τ).loc main_arg12)), vec (m ((c : Thread nD τ).loc main_arg13))⟩

/-- The mask as floats. -/
abbrev maskf (c : Dev nD) : S256x1024.Idx → EReal := uitofp (F := Ideal) .f32 (m ((c : Thread nD τ).loc main_arg1))

/-! ## The blocks of x and of the mask -/

theorem idx_x : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem idx_mask : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

/-- Point t's block of x at (p, q, d) is x at (its batch row, position q of its tile, d). -/
theorem xblk_apply (c : Dev nD) (t : Fin cfg0.N) (p : Fin 32) (q : Fin 256) (d : Fin 64) :
    (iblk m c 0 t : Vec Ideal S32x256x64 .f32) (ix3 p q d)
      = m ((c : Thread nD τ).loc main_arg0) (ix3 (brow t p) (tilePos (tile t) q) d) := by
  rw [← V_main_arg0 m c]
  show V m c main_arg0 (((cfg0.win 0).blk t).view.emb (ix3 p q d)) = V m c main_arg0 (ix3 (brow t p) (tilePos (tile t) q) d)
  refine congrArg (V m c main_arg0) (funext fun a => Fin.ext ?_)
  match a with
  | ⟨0, _⟩ => show win0_0.index t 0 * 32 + 1 * p.val = 32 * (t.val / 4) + p.val; rw [(idx_x t).1]; omega
  | ⟨1, _⟩ => show win0_0.index t 1 * 256 + 1 * q.val = 256 * (t.val % 4) + q.val; rw [(idx_x t).2.1]; omega
  | ⟨2, _⟩ => show win0_0.index t 2 * 64 + 1 * d.val = d.val; rw [(idx_x t).2.2]; omega

/-- The mask array the region reads: the boolean mask as floats, with a unit axis appended. -/
theorem V_mask (c : Dev nD) : (V m c main_v1 : S256x1024x1.Idx → EReal)
    = broadcastInDim S256x1024x1 ![0, 1] bcast_S256x1024_S256x1024x1_0_1 (maskf m c) := by
  show StableHlo.after hostOps0 (fun b => m (c, b)) (Proc.devRef .tc main_v1) = _
  after_results

/-- Point t's block of the mask at (p, q, 0) is the float mask at (its batch row, position q of its tile). -/
theorem mblk_apply (c : Dev nD) (t : Fin cfg0.N) (p : Fin 32) (q : Fin 256) :
    (iblk m c 1 t : Vec Ideal S32x256x1 .f32) (ix3 p q (0 : Fin 1)) = maskf m c (ix2 (brow t p) (tilePos (tile t) q)) := by
  have e : (iblk m c 1 t : Vec Ideal S32x256x1 .f32) (ix3 p q (0 : Fin 1))
      = (V m c main_v1 : S256x1024x1.Idx → EReal) (ix3 (brow t p) (tilePos (tile t) q) (0 : Fin 1)) := by
    show V m c main_v1 (((cfg0.win 1).blk t).view.emb (ix3 p q (0 : Fin 1))) = V m c main_v1 (ix3 (brow t p) (tilePos (tile t) q) (0 : Fin 1))
    refine congrArg (V m c main_v1) (funext fun a => Fin.ext ?_)
    match a with
    | ⟨0, _⟩ => show win0_1.index t 0 * 32 + 1 * p.val = 32 * (t.val / 4) + p.val; rw [(idx_mask t).1]; omega
    | ⟨1, _⟩ => show win0_1.index t 1 * 256 + 1 * q.val = 256 * (t.val % 4) + q.val; rw [(idx_mask t).2.1]; omega
    | ⟨2, _⟩ => show win0_1.index t 2 * 1 + 1 * 0 = 0; rw [(idx_mask t).2.2]
  rw [e, V_mask]
  exact broadcastInDim_apply _ bcast_S256x1024_S256x1024x1_0_1 (maskf m c) _ (ix2 (brow t p) (tilePos (tile t) q)) (fun a => match a with
    | ⟨0, _⟩ => by show (brow t p).val = if (256 : Nat) = 1 then 0 else (brow t p).val; rw [if_neg (by decide)]
    | ⟨1, _⟩ => by show (tilePos (tile t) q).val = if (1024 : Nat) = 1 then 0 else (tilePos (tile t) q).val; rw [if_neg (by decide)])

/-! ## The weights and biases: whole arrays -/

/-- Window 2's block is its whole array at every point. -/
theorem idx_w2 : ∀ t : Fin cfg0.N, win0_2.index t 0 = 0 ∧ win0_2.index t 1 = 0 :=
  (by decide +kernel : ∀ t : Fin grid0.N, win0_2.index t 0 = 0 ∧ win0_2.index t 1 = 0)
theorem blk2_eq (c : Dev nD) (t : Fin cfg0.N) : (iblk m c 2 t : Vec Ideal S64x256 .f32) = V m c main_arg2 := by
  funext y
  show V m c main_arg2 (((cfg0.win 2).blk t).view.emb y) = V m c main_arg2 y
  refine congrArg (V m c main_arg2) (funext fun a => Fin.ext ?_)
  match a with
  | ⟨0, _⟩ => show win0_2.index t 0 * 64 + 1 * (y 0).val = (y 0).val; rw [(idx_w2 t).1]; omega
  | ⟨1, _⟩ => show win0_2.index t 1 * 256 + 1 * (y 1).val = (y 1).val; rw [(idx_w2 t).2]; omega
/-- Window 3's block is its whole array at every point. -/
theorem idx_w3 : ∀ t : Fin cfg0.N, win0_3.index t 0 = 0 ∧ win0_3.index t 1 = 0 :=
  (by decide +kernel : ∀ t : Fin grid0.N, win0_3.index t 0 = 0 ∧ win0_3.index t 1 = 0)
theorem blk3_eq (c : Dev nD) (t : Fin cfg0.N) : (iblk m c 3 t : Vec Ideal S1x256 .f32) = V m c main_v2 := by
  funext y
  show V m c main_v2 (((cfg0.win 3).blk t).view.emb y) = V m c main_v2 y
  refine congrArg (V m c main_v2) (funext fun a => Fin.ext ?_)
  match a with
  | ⟨0, _⟩ => show win0_3.index t 0 * 1 + 1 * (y 0).val = (y 0).val; rw [(idx_w3 t).1]; omega
  | ⟨1, _⟩ => show win0_3.index t 1 * 256 + 1 * (y 1).val = (y 1).val; rw [(idx_w3 t).2]; omega
/-- Window 4's block is its whole array at every point. -/
theorem idx_w4 : ∀ t : Fin cfg0.N, win0_4.index t 0 = 0 ∧ win0_4.index t 1 = 0 :=
  (by decide +kernel : ∀ t : Fin grid0.N, win0_4.index t 0 = 0 ∧ win0_4.index t 1 = 0)
theorem blk4_eq (c : Dev nD) (t : Fin cfg0.N) : (iblk m c 4 t : Vec Ideal S256x256 .f32) = V m c main_arg4 := by
  funext y
  show V m c main_arg4 (((cfg0.win 4).blk t).view.emb y) = V m c main_arg4 y
  refine congrArg (V m c main_arg4) (funext fun a => Fin.ext ?_)
  match a with
  | ⟨0, _⟩ => show win0_4.index t 0 * 256 + 1 * (y 0).val = (y 0).val; rw [(idx_w4 t).1]; omega
  | ⟨1, _⟩ => show win0_4.index t 1 * 256 + 1 * (y 1).val = (y 1).val; rw [(idx_w4 t).2]; omega
/-- Window 5's block is its whole array at every point. -/
theorem idx_w5 : ∀ t : Fin cfg0.N, win0_5.index t 0 = 0 ∧ win0_5.index t 1 = 0 :=
  (by decide +kernel : ∀ t : Fin grid0.N, win0_5.index t 0 = 0 ∧ win0_5.index t 1 = 0)
theorem blk5_eq (c : Dev nD) (t : Fin cfg0.N) : (iblk m c 5 t : Vec Ideal S1x256 .f32) = V m c main_v3 := by
  funext y
  show V m c main_v3 (((cfg0.win 5).blk t).view.emb y) = V m c main_v3 y
  refine congrArg (V m c main_v3) (funext fun a => Fin.ext ?_)
  match a with
  | ⟨0, _⟩ => show win0_5.index t 0 * 1 + 1 * (y 0).val = (y 0).val; rw [(idx_w5 t).1]; omega
  | ⟨1, _⟩ => show win0_5.index t 1 * 256 + 1 * (y 1).val = (y 1).val; rw [(idx_w5 t).2]; omega
/-- Window 6's block is its whole array at every point. -/
theorem idx_w6 : ∀ t : Fin cfg0.N, win0_6.index t 0 = 0 ∧ win0_6.index t 1 = 0 :=
  (by decide +kernel : ∀ t : Fin grid0.N, win0_6.index t 0 = 0 ∧ win0_6.index t 1 = 0)
theorem blk6_eq (c : Dev nD) (t : Fin cfg0.N) : (iblk m c 6 t : Vec Ideal S256x256 .f32) = V m c main_arg6 := by
  funext y
  show V m c main_arg6 (((cfg0.win 6).blk t).view.emb y) = V m c main_arg6 y
  refine congrArg (V m c main_arg6) (funext fun a => Fin.ext ?_)
  match a with
  | ⟨0, _⟩ => show win0_6.index t 0 * 256 + 1 * (y 0).val = (y 0).val; rw [(idx_w6 t).1]; omega
  | ⟨1, _⟩ => show win0_6.index t 1 * 256 + 1 * (y 1).val = (y 1).val; rw [(idx_w6 t).2]; omega
/-- Window 7's block is its whole array at every point. -/
theorem idx_w7 : ∀ t : Fin cfg0.N, win0_7.index t 0 = 0 ∧ win0_7.index t 1 = 0 :=
  (by decide +kernel : ∀ t : Fin grid0.N, win0_7.index t 0 = 0 ∧ win0_7.index t 1 = 0)
theorem blk7_eq (c : Dev nD) (t : Fin cfg0.N) : (iblk m c 7 t : Vec Ideal S1x256 .f32) = V m c main_v4 := by
  funext y
  show V m c main_v4 (((cfg0.win 7).blk t).view.emb y) = V m c main_v4 y
  refine congrArg (V m c main_v4) (funext fun a => Fin.ext ?_)
  match a with
  | ⟨0, _⟩ => show win0_7.index t 0 * 1 + 1 * (y 0).val = (y 0).val; rw [(idx_w7 t).1]; omega
  | ⟨1, _⟩ => show win0_7.index t 1 * 256 + 1 * (y 1).val = (y 1).val; rw [(idx_w7 t).2]; omega
/-- Window 8's block is its whole array at every point. -/
theorem idx_w8 : ∀ t : Fin cfg0.N, win0_8.index t 0 = 0 ∧ win0_8.index t 1 = 0 :=
  (by decide +kernel : ∀ t : Fin grid0.N, win0_8.index t 0 = 0 ∧ win0_8.index t 1 = 0)
theorem blk8_eq (c : Dev nD) (t : Fin cfg0.N) : (iblk m c 8 t : Vec Ideal S256x256 .f32) = V m c main_arg8 := by
  funext y
  show V m c main_arg8 (((cfg0.win 8).blk t).view.emb y) = V m c main_arg8 y
  refine congrArg (V m c main_arg8) (funext fun a => Fin.ext ?_)
  match a with
  | ⟨0, _⟩ => show win0_8.index t 0 * 256 + 1 * (y 0).val = (y 0).val; rw [(idx_w8 t).1]; omega
  | ⟨1, _⟩ => show win0_8.index t 1 * 256 + 1 * (y 1).val = (y 1).val; rw [(idx_w8 t).2]; omega
/-- Window 9's block is its whole array at every point. -/
theorem idx_w9 : ∀ t : Fin cfg0.N, win0_9.index t 0 = 0 ∧ win0_9.index t 1 = 0 :=
  (by decide +kernel : ∀ t : Fin grid0.N, win0_9.index t 0 = 0 ∧ win0_9.index t 1 = 0)
theorem blk9_eq (c : Dev nD) (t : Fin cfg0.N) : (iblk m c 9 t : Vec Ideal S1x256 .f32) = V m c main_v5 := by
  funext y
  show V m c main_v5 (((cfg0.win 9).blk t).view.emb y) = V m c main_v5 y
  refine congrArg (V m c main_v5) (funext fun a => Fin.ext ?_)
  match a with
  | ⟨0, _⟩ => show win0_9.index t 0 * 1 + 1 * (y 0).val = (y 0).val; rw [(idx_w9 t).1]; omega
  | ⟨1, _⟩ => show win0_9.index t 1 * 256 + 1 * (y 1).val = (y 1).val; rw [(idx_w9 t).2]; omega
/-- Window 10's block is its whole array at every point. -/
theorem idx_w10 : ∀ t : Fin cfg0.N, win0_10.index t 0 = 0 ∧ win0_10.index t 1 = 0 :=
  (by decide +kernel : ∀ t : Fin grid0.N, win0_10.index t 0 = 0 ∧ win0_10.index t 1 = 0)
theorem blk10_eq (c : Dev nD) (t : Fin cfg0.N) : (iblk m c 10 t : Vec Ideal S256x256 .f32) = V m c main_arg10 := by
  funext y
  show V m c main_arg10 (((cfg0.win 10).blk t).view.emb y) = V m c main_arg10 y
  refine congrArg (V m c main_arg10) (funext fun a => Fin.ext ?_)
  match a with
  | ⟨0, _⟩ => show win0_10.index t 0 * 256 + 1 * (y 0).val = (y 0).val; rw [(idx_w10 t).1]; omega
  | ⟨1, _⟩ => show win0_10.index t 1 * 256 + 1 * (y 1).val = (y 1).val; rw [(idx_w10 t).2]; omega
/-- Window 11's block is its whole array at every point. -/
theorem idx_w11 : ∀ t : Fin cfg0.N, win0_11.index t 0 = 0 ∧ win0_11.index t 1 = 0 :=
  (by decide +kernel : ∀ t : Fin grid0.N, win0_11.index t 0 = 0 ∧ win0_11.index t 1 = 0)
theorem blk11_eq (c : Dev nD) (t : Fin cfg0.N) : (iblk m c 11 t : Vec Ideal S1x256 .f32) = V m c main_v6 := by
  funext y
  show V m c main_v6 (((cfg0.win 11).blk t).view.emb y) = V m c main_v6 y
  refine congrArg (V m c main_v6) (funext fun a => Fin.ext ?_)
  match a with
  | ⟨0, _⟩ => show win0_11.index t 0 * 1 + 1 * (y 0).val = (y 0).val; rw [(idx_w11 t).1]; omega
  | ⟨1, _⟩ => show win0_11.index t 1 * 256 + 1 * (y 1).val = (y 1).val; rw [(idx_w11 t).2]; omega
/-- Window 12's block is its whole array at every point. -/
theorem idx_w12 : ∀ t : Fin cfg0.N, win0_12.index t 0 = 0 ∧ win0_12.index t 1 = 0 :=
  (by decide +kernel : ∀ t : Fin grid0.N, win0_12.index t 0 = 0 ∧ win0_12.index t 1 = 0)
theorem blk12_eq (c : Dev nD) (t : Fin cfg0.N) : (iblk m c 12 t : Vec Ideal S256x128 .f32) = V m c main_arg12 := by
  funext y
  show V m c main_arg12 (((cfg0.win 12).blk t).view.emb y) = V m c main_arg12 y
  refine congrArg (V m c main_arg12) (funext fun a => Fin.ext ?_)
  match a with
  | ⟨0, _⟩ => show win0_12.index t 0 * 256 + 1 * (y 0).val = (y 0).val; rw [(idx_w12 t).1]; omega
  | ⟨1, _⟩ => show win0_12.index t 1 * 128 + 1 * (y 1).val = (y 1).val; rw [(idx_w12 t).2]; omega
/-- Window 13's block is its whole array at every point. -/
theorem idx_w13 : ∀ t : Fin cfg0.N, win0_13.index t 0 = 0 ∧ win0_13.index t 1 = 0 :=
  (by decide +kernel : ∀ t : Fin grid0.N, win0_13.index t 0 = 0 ∧ win0_13.index t 1 = 0)
theorem blk13_eq (c : Dev nD) (t : Fin cfg0.N) : (iblk m c 13 t : Vec Ideal S1x128 .f32) = V m c main_v7 := by
  funext y
  show V m c main_v7 (((cfg0.win 13).blk t).view.emb y) = V m c main_v7 y
  refine congrArg (V m c main_v7) (funext fun a => Fin.ext ?_)
  match a with
  | ⟨0, _⟩ => show win0_13.index t 0 * 1 + 1 * (y 0).val = (y 0).val; rw [(idx_w13 t).1]; omega
  | ⟨1, _⟩ => show win0_13.index t 1 * 128 + 1 * (y 1).val = (y 1).val; rw [(idx_w13 t).2]; omega

/-- The one-row bias array the region finds is the bias vector with a unit axis put in front. -/
theorem V_main_v2 (c : Dev nD) : (V m c main_v2 : S1x256.Idx → EReal) = shapeCast S1x256 (m ((c : Thread nD τ).loc main_arg3)) shapeCasts_S256_S1x256 := by
  show StableHlo.after hostOps0 (fun b => m (c, b)) (Proc.devRef .tc main_v2) = _
  after_results
  rfl
theorem rowvec_main_v2 (c : Dev nD) : rowvec (V m c main_v2 : S1x256.Idx → EReal) = vec (m ((c : Thread nD τ).loc main_arg3)) := by
  funext j
  show (V m c main_v2 : S1x256.Idx → EReal) (ix2 (0 : Fin 1) j) = _
  rw [V_main_v2, shapeCast_a_1a_apply]
  rfl
/-- The one-row bias array the region finds is the bias vector with a unit axis put in front. -/
theorem V_main_v3 (c : Dev nD) : (V m c main_v3 : S1x256.Idx → EReal) = shapeCast S1x256 (m ((c : Thread nD τ).loc main_arg5)) shapeCasts_S256_S1x256 := by
  show StableHlo.after hostOps0 (fun b => m (c, b)) (Proc.devRef .tc main_v3) = _
  after_results
  rfl
theorem rowvec_main_v3 (c : Dev nD) : rowvec (V m c main_v3 : S1x256.Idx → EReal) = vec (m ((c : Thread nD τ).loc main_arg5)) := by
  funext j
  show (V m c main_v3 : S1x256.Idx → EReal) (ix2 (0 : Fin 1) j) = _
  rw [V_main_v3, shapeCast_a_1a_apply]
  rfl
/-- The one-row bias array the region finds is the bias vector with a unit axis put in front. -/
theorem V_main_v4 (c : Dev nD) : (V m c main_v4 : S1x256.Idx → EReal) = shapeCast S1x256 (m ((c : Thread nD τ).loc main_arg7)) shapeCasts_S256_S1x256 := by
  show StableHlo.after hostOps0 (fun b => m (c, b)) (Proc.devRef .tc main_v4) = _
  after_results
  rfl
theorem rowvec_main_v4 (c : Dev nD) : rowvec (V m c main_v4 : S1x256.Idx → EReal) = vec (m ((c : Thread nD τ).loc main_arg7)) := by
  funext j
  show (V m c main_v4 : S1x256.Idx → EReal) (ix2 (0 : Fin 1) j) = _
  rw [V_main_v4, shapeCast_a_1a_apply]
  rfl
/-- The one-row bias array the region finds is the bias vector with a unit axis put in front. -/
theorem V_main_v5 (c : Dev nD) : (V m c main_v5 : S1x256.Idx → EReal) = shapeCast S1x256 (m ((c : Thread nD τ).loc main_arg9)) shapeCasts_S256_S1x256 := by
  show StableHlo.after hostOps0 (fun b => m (c, b)) (Proc.devRef .tc main_v5) = _
  after_results
  rfl
theorem rowvec_main_v5 (c : Dev nD) : rowvec (V m c main_v5 : S1x256.Idx → EReal) = vec (m ((c : Thread nD τ).loc main_arg9)) := by
  funext j
  show (V m c main_v5 : S1x256.Idx → EReal) (ix2 (0 : Fin 1) j) = _
  rw [V_main_v5, shapeCast_a_1a_apply]
  rfl
/-- The one-row bias array the region finds is the bias vector with a unit axis put in front. -/
theorem V_main_v6 (c : Dev nD) : (V m c main_v6 : S1x256.Idx → EReal) = shapeCast S1x256 (m ((c : Thread nD τ).loc main_arg11)) shapeCasts_S256_S1x256 := by
  show StableHlo.after hostOps0 (fun b => m (c, b)) (Proc.devRef .tc main_v6) = _
  after_results
  rfl
theorem rowvec_main_v6 (c : Dev nD) : rowvec (V m c main_v6 : S1x256.Idx → EReal) = vec (m ((c : Thread nD τ).loc main_arg11)) := by
  funext j
  show (V m c main_v6 : S1x256.Idx → EReal) (ix2 (0 : Fin 1) j) = _
  rw [V_main_v6, shapeCast_a_1a_apply]
  rfl
/-- The one-row bias array the region finds is the bias vector with a unit axis put in front. -/
theorem V_main_v7 (c : Dev nD) : (V m c main_v7 : S1x128.Idx → EReal) = shapeCast S1x128 (m ((c : Thread nD τ).loc main_arg13)) shapeCasts_S128_S1x128 := by
  show StableHlo.after hostOps0 (fun b => m (c, b)) (Proc.devRef .tc main_v7) = _
  after_results
  rfl
theorem rowvec_main_v7 (c : Dev nD) : rowvec (V m c main_v7 : S1x128.Idx → EReal) = vec (m ((c : Thread nD τ).loc main_arg13)) := by
  funext j
  show (V m c main_v7 : S1x128.Idx → EReal) (ix2 (0 : Fin 1) j) = _
  rw [V_main_v7, shapeCast_a_1a_apply]
  rfl

end Cert.KernelIdeal.Blocks

end
-- ==== Proof.Pieces.lean ====
/-
  What one run of the kernel body leaves behind, as values of what it loaded.

  The body adds, into the carried [32, 256] accumulator, the masked sum over the 256 set elements of its block of the
  per-element network's outputs; at the first tile of a batch block the accumulator is first set to zero, and at the last
  tile the second network is applied to the accumulator and stored as the [32, 128] output block. So, with
  A = accumulate(network(x block, weights), mask block, ·):
    first tile   : accumulator ← A(zeros)
    middle tiles : accumulator ← A(what the tile before left)
    last tile    : accumulator ← A(what the tile before left), output ← second network of that accumulator.
  Each statement holds for any float instance: it only reads back the stores of one run.
-/
import proofs.«180472_j747324309661_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after one tile, from the block's loads and what the accumulator held. -/
abbrev accum (x0 : Vec F S32x256x64 .f32) (x1 : Vec F S32x256x1 .f32) (x2 : Vec F S64x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (x12 : Vec F S256x128 .f32) (x13 : Vec F S1x128 .f32) (acc : Vec F S32x256 .f32) : Vec F S32x256 .f32 :=
  k0_pay1 (k0_pay4 x0 x2 x3 x4 x5 x6 x7) x1 acc

variable (c : Dev nD) (i : grid0.Coords) (arg2 : Memref sig .tc .vmem S32x256x64 .f32) (harg2 : arg2.IsWhole) (arg3 : Memref sig .tc .vmem S32x256x1 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S32x128 .f32) (harg16 : arg16.IsWhole) (arg17 : Memref sig .tc .vmem S32x256 .f32) (harg17 : arg17.IsWhole)

/-- First tile: the accumulator is set to zero and the tile's masked sum is added to that. -/
theorem acc_first (hc0 : cond0_0 i) (hc1 : ¬cond0_1 i) (x0 : Vec F S32x256x64 .f32) (x1 : Vec F S32x256x1 .f32) (x2 : Vec F S64x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (x12 : Vec F S256x128 .f32) (x13 : Vec F S1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = accum x0 x1 x2 x3 x4 x5 x6 x7 x8 x9 x10 x11 x12 x13 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13)]
  unfold kernelRun0_A
  dsimp only
  sl_unfold_words
  rw [View.canon_cons_unit_zero (S := S32x256) hz2, View.readCov_unit_zero (S := S32x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S32x256x64) hz3, View.ld_unit_zero (S := S32x256x1) hz3, View.ld_unit_zero (S := S64x256) hz2, View.ld_unit_zero (S := S1x256) hz2, View.ld_unit_zero (S := S256x256) hz2, View.ld_unit_zero (S := S256x128) hz2, View.ld_unit_zero (S := S1x128) hz2, View.ld_unit_zero (S := S32x128) hz2, View.ld_unit_zero (S := S32x256) hz2]

/-- A middle tile: the tile's masked sum is added to what the tile before left. -/
theorem acc_middle (hc0 : ¬cond0_0 i) (hc1 : ¬cond0_1 i) (x0 : Vec F S32x256x64 .f32) (x1 : Vec F S32x256x1 .f32) (x2 : Vec F S64x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (x12 : Vec F S256x128 .f32) (x13 : Vec F S1x128 .f32) (xs0 : Vec F S32x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 = accum x0 x1 x2 x3 x4 x5 x6 x7 x8 x9 x10 x11 x12 x13 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S32x256x64) hz3, View.ld_unit_zero (S := S32x256x1) hz3, View.ld_unit_zero (S := S64x256) hz2, View.ld_unit_zero (S := S1x256) hz2, View.ld_unit_zero (S := S256x256) hz2, View.ld_unit_zero (S := S256x128) hz2, View.ld_unit_zero (S := S1x128) hz2, View.ld_unit_zero (S := S32x128) hz2, View.ld_unit_zero (S := S32x256) hz2]

/-- The last tile leaves the accumulator as a middle tile does … -/
theorem acc_last (hc0 : ¬cond0_0 i) (hc1 : cond0_1 i) (x0 : Vec F S32x256x64 .f32) (x1 : Vec F S32x256x1 .f32) (x2 : Vec F S64x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (x12 : Vec F S256x128 .f32) (x13 : Vec F S1x128 .f32) (xs0 : Vec F S32x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 = accum x0 x1 x2 x3 x4 x5 x6 x7 x8 x9 x10 x11 x12 x13 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S32x256x64) hz3, View.ld_unit_zero (S := S32x256x1) hz3, View.ld_unit_zero (S := S64x256) hz2, View.ld_unit_zero (S := S1x256) hz2, View.ld_unit_zero (S := S256x256) hz2, View.ld_unit_zero (S := S256x128) hz2, View.ld_unit_zero (S := S1x128) hz2, View.ld_unit_zero (S := S32x128) hz2, View.ld_unit_zero (S := S32x256) hz2]

/-- … and stores, as the output block, the second network of that accumulator. -/
theorem out_last (hc0 : ¬cond0_0 i) (hc1 : cond0_1 i) (x0 : Vec F S32x256x64 .f32) (x1 : Vec F S32x256x1 .f32) (x2 : Vec F S64x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (x12 : Vec F S256x128 .f32) (x13 : Vec F S1x128 .f32) (xs0 : Vec F S32x256 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0 = k0_pay2 (accum x0 x1 x2 x3 x4 x5 x6 x7 x8 x9 x10 x11 x12 x13 xs0) x8 x9 x10 x11 x12 x13 := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S32x256x64) hz3, View.ld_unit_zero (S := S32x256x1) hz3, View.ld_unit_zero (S := S64x256) hz2, View.ld_unit_zero (S := S1x256) hz2, View.ld_unit_zero (S := S256x256) hz2, View.ld_unit_zero (S := S256x128) hz2, View.ld_unit_zero (S := S1x128) hz2, View.ld_unit_zero (S := S32x128) hz2, View.ld_unit_zero (S := S32x256) hz2, View.readCov_unit_zero (S := S32x256) _ hz2]

end Cert.KernelIdeal.Pieces

end
-- ==== Proof.Accum.lean ====
/-
  The accumulator across the four tiles of a batch block, and the output block at the last tile.

  For batch block i the grid visits the tiles j = 0, 1, 2, 3 in order, at points 4·i + j. At the first tile the
  accumulator is zero plus the tile's masked sum; at each later tile the tile's masked sum is added to what the tile before
  left. So after tile j the accumulator holds, at (p, k), ((0 + S₀) + S₁ + …) + S_j where S_j is the sum over tile j's 256
  set elements of the specification's masked terms of batch row 32·i + p at output k. After the last tile that is the
  specification's pooled vector (a sum over 1024 elements regrouped into 4 tiles of 256, and 0 + x = x), and the output
  block is the specification's second network of it.
-/
import proofs.«180472_j747324309661_1_alg».proof.Proof.Blocks
import proofs.«180472_j747324309661_1_alg».proof.Proof.Pieces

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.DeepSet Cert.LibDense Cert.KernelIdeal.Blocks

variable (m : (ℓ : Loc nD τ sig) → Buf (Elt Ideal) ℓ)

/-! ## The blocks a point is handed, named at their literal types -/

abbrev b0 (c : Dev nD) (t : Fin cfg0.N) : Vec Ideal S32x256x64 .f32 := iblk m c 0 t
abbrev b1 (c : Dev nD) (t : Fin cfg0.N) : Vec Ideal S32x256x1 .f32 := iblk m c 1 t
abbrev b2 (c : Dev nD) (t : Fin cfg0.N) : Vec Ideal S64x256 .f32 := iblk m c 2 t
abbrev b3 (c : Dev nD) (t : Fin cfg0.N) : Vec Ideal S1x256 .f32 := iblk m c 3 t
abbrev b4 (c : Dev nD) (t : Fin cfg0.N) : Vec Ideal S256x256 .f32 := iblk m c 4 t
abbrev b5 (c : Dev nD) (t : Fin cfg0.N) : Vec Ideal S1x256 .f32 := iblk m c 5 t
abbrev b6 (c : Dev nD) (t : Fin cfg0.N) : Vec Ideal S256x256 .f32 := iblk m c 6 t
abbrev b7 (c : Dev nD) (t : Fin cfg0.N) : Vec Ideal S1x256 .f32 := iblk m c 7 t
abbrev b8 (c : Dev nD) (t : Fin cfg0.N) : Vec Ideal S256x256 .f32 := iblk m c 8 t
abbrev b9 (c : Dev nD) (t : Fin cfg0.N) : Vec Ideal S1x256 .f32 := iblk m c 9 t
abbrev b10 (c : Dev nD) (t : Fin cfg0.N) : Vec Ideal S256x256 .f32 := iblk m c 10 t
abbrev b11 (c : Dev nD) (t : Fin cfg0.N) : Vec Ideal S1x256 .f32 := iblk m c 11 t
abbrev b12 (c : Dev nD) (t : Fin cfg0.N) : Vec Ideal S256x128 .f32 := iblk m c 12 t
abbrev b13 (c : Dev nD) (t : Fin cfg0.N) : Vec Ideal S1x128 .f32 := iblk m c 13 t

theorem par2 (c : Dev nD) (t : Fin cfg0.N) : mat (b2 m c t) = (kparams m c).pw1 := by
  show mat (iblk m c 2 t : Vec Ideal S64x256 .f32) = mat (m ((c : Thread nD τ).loc main_arg2))
  rw [blk2_eq, V_main_arg2]
theorem par3 (c : Dev nD) (t : Fin cfg0.N) : rowvec (b3 m c t) = (kparams m c).pb1 := by
  show rowvec (iblk m c 3 t : Vec Ideal S1x256 .f32) = vec (m ((c : Thread nD τ).loc main_arg3))
  rw [blk3_eq, rowvec_main_v2]
theorem par4 (c : Dev nD) (t : Fin cfg0.N) : mat (b4 m c t) = (kparams m c).pw2 := by
  show mat (iblk m c 4 t : Vec Ideal S256x256 .f32) = mat (m ((c : Thread nD τ).loc main_arg4))
  rw [blk4_eq, V_main_arg4]
theorem par5 (c : Dev nD) (t : Fin cfg0.N) : rowvec (b5 m c t) = (kparams m c).pb2 := by
  show rowvec (iblk m c 5 t : Vec Ideal S1x256 .f32) = vec (m ((c : Thread nD τ).loc main_arg5))
  rw [blk5_eq, rowvec_main_v3]
theorem par6 (c : Dev nD) (t : Fin cfg0.N) : mat (b6 m c t) = (kparams m c).pw3 := by
  show mat (iblk m c 6 t : Vec Ideal S256x256 .f32) = mat (m ((c : Thread nD τ).loc main_arg6))
  rw [blk6_eq, V_main_arg6]
theorem par7 (c : Dev nD) (t : Fin cfg0.N) : rowvec (b7 m c t) = (kparams m c).pb3 := by
  show rowvec (iblk m c 7 t : Vec Ideal S1x256 .f32) = vec (m ((c : Thread nD τ).loc main_arg7))
  rw [blk7_eq, rowvec_main_v4]
theorem par8 (c : Dev nD) (t : Fin cfg0.N) : mat (b8 m c t) = (kparams m c).rw1 := by
  show mat (iblk m c 8 t : Vec Ideal S256x256 .f32) = mat (m ((c : Thread nD τ).loc main_arg8))
  rw [blk8_eq, V_main_arg8]
theorem par9 (c : Dev nD) (t : Fin cfg0.N) : rowvec (b9 m c t) = (kparams m c).rb1 := by
  show rowvec (iblk m c 9 t : Vec Ideal S1x256 .f32) = vec (m ((c : Thread nD τ).loc main_arg9))
  rw [blk9_eq, rowvec_main_v5]
theorem par10 (c : Dev nD) (t : Fin cfg0.N) : mat (b10 m c t) = (kparams m c).rw2 := by
  show mat (iblk m c 10 t : Vec Ideal S256x256 .f32) = mat (m ((c : Thread nD τ).loc main_arg10))
  rw [blk10_eq, V_main_arg10]
theorem par11 (c : Dev nD) (t : Fin cfg0.N) : rowvec (b11 m c t) = (kparams m c).rb2 := by
  show rowvec (iblk m c 11 t : Vec Ideal S1x256 .f32) = vec (m ((c : Thread nD τ).loc main_arg11))
  rw [blk11_eq, rowvec_main_v6]
theorem par12 (c : Dev nD) (t : Fin cfg0.N) : mat (b12 m c t) = (kparams m c).rw3 := by
  show mat (iblk m c 12 t : Vec Ideal S256x128 .f32) = mat (m ((c : Thread nD τ).loc main_arg12))
  rw [blk12_eq, V_main_arg12]
theorem par13 (c : Dev nD) (t : Fin cfg0.N) : rowvec (b13 m c t) = (kparams m c).rb3 := by
  show rowvec (iblk m c 13 t : Vec Ideal S1x128 .f32) = vec (m ((c : Thread nD τ).loc main_arg13))
  rw [blk13_eq, rowvec_main_v7]

/-- The 64 numbers of element (p, q) of point t's block of x are those of element q of its tile, in its batch row. -/
theorem x_fibre (c : Dev nD) (t : Fin cfg0.N) (p : Fin 32) (q : Fin 256) :
    (fun d => b0 m c t (ix3 p q d)) = fun d => m ((c : Thread nD τ).loc main_arg0) (ix3 (brow t p) (tilePos (tile t) q) d) :=
  funext fun d => xblk_apply m c t p q d

/-- The mask value of element (p, q) of point t's block is the float mask at element q of its tile, in its batch row. -/
theorem m_entry (c : Dev nD) (t : Fin cfg0.N) (p : Fin 32) (q : Fin 256) :
    b1 m c t (ix3 p q (0 : Fin 1)) = maskf m c (ix2 (brow t p) (tilePos (tile t) q)) := mblk_apply m c t p q

/-! ## One run of the body -/

/-- The masked terms of batch row b at output k, added over tile j of the set. -/
def tileSum (c : Dev nD) (b : Fin 256) (k : Fin 256) (j : Fin 4) : EReal :=
  ∑ q : Fin 256, term (kparams m c) (m ((c : Thread nD τ).loc main_arg0)) (maskf m c) b k (tilePos j q)

/-- One run of the body adds, at (p, k), its tile's masked sum of its batch row to the accumulator. -/
theorem tile_add (c : Dev nD) (t : Fin cfg0.N) (acc : Vec Ideal S32x256 .f32) (p : Fin 32) (k : Fin 256) :
    Pieces.accum (b0 m c t) (b1 m c t) (b2 m c t) (b3 m c t) (b4 m c t) (b5 m c t) (b6 m c t) (b7 m c t) (b8 m c t) (b9 m c t) (b10 m c t) (b11 m c t) (b12 m c t) (b13 m c t) acc (ix2 p k) = acc (ix2 p k) + tileSum m c (brow t p) k (tile t) := by
  refine (Payload.accum_apply (k0_pay4 (b0 m c t) (b2 m c t) (b3 m c t) (b4 m c t) (b5 m c t) (b6 m c t) (b7 m c t)) (b1 m c t) acc p k).trans ?_
  refine congrArg (acc (ix2 p k) + ·) (Finset.sum_congr rfl fun q _ => ?_)
  rw [Payload.phi_block (b0 m c t) (b2 m c t) (b3 m c t) (b4 m c t) (b5 m c t) (b6 m c t) (b7 m c t) p q k, m_entry m c t p q,
    par2, par3, par4, par5, par6, par7, x_fibre]
  rfl

/-- The stored output block at (p, o) is the second network of row p of the accumulator, with the launch parameters. -/
theorem out_block (c : Dev nD) (t : Fin cfg0.N) (acc : Vec Ideal S32x256 .f32) (p : Fin 32) (o : Fin 128) :
    k0_pay2 acc (b8 m c t) (b9 m c t) (b10 m c t) (b11 m c t) (b12 m c t) (b13 m c t) (ix2 p o) = rho (kparams m c) (row acc p) o := by
  refine (Payload.rho_block acc (b8 m c t) (b9 m c t) (b10 m c t) (b11 m c t) (b12 m c t) (b13 m c t) p o).trans ?_
  rw [par8, par9, par10, par11, par12, par13]
  rfl

/-! ## The accumulator after each tile -/

/-- ((0 + f 0) + f 1 + …) + f j. -/
def upTo (f : Fin 4 → EReal) : (j : ℕ) → j < 4 → EReal
  | 0, h => 0 + f ⟨0, h⟩
  | j + 1, h => upTo f j (Nat.lt_of_succ_lt h) + f ⟨j + 1, h⟩

/-- After the fourth term it is the sum of all four. -/
theorem upTo_three (f : Fin 4 → EReal) : upTo f 3 (by decide) = ∑ j : Fin 4, f j := by
  rw [Fin.sum_univ_four]
  show 0 + f ⟨0, _⟩ + f ⟨1, _⟩ + f ⟨2, _⟩ + f ⟨3, _⟩ = _
  rw [zero_add]
  rfl

/-- The four tile sums together are the pooled entry. -/
theorem sum_tileSum (c : Dev nD) (b : Fin 256) (k : Fin 256) :
    ∑ j : Fin 4, tileSum m c b k j = pooled (kparams m c) (m ((c : Thread nD τ).loc main_arg0)) (maskf m c) b k :=
  (sum_tiles _).symm

/-- After tile j of batch block i, the accumulator at (p, k) holds the sums of tiles 0 … j of batch row b = 32·i + p. -/
theorem acc_at (c : Dev nD) (i : ℕ) (p : Fin 32) (k : Fin 256) (b : Fin 256) (hb : b.val = 32 * i + p.val) :
    ∀ (j : ℕ) (hj : j < 4) (h : 4 * i + j < cfg0.N),
      ((outsAt0 m c (4 * i + j) h).2 : Vec Ideal S32x256 .f32) (ix2 p k) = upTo (tileSum m c b k) j hj
  | 0, hj, h => by
    let t : Fin cfg0.N := ⟨4 * i + 0, h⟩
    have h0 : t.val % 4 = 0 := by show (4 * i + 0) % 4 = 0; omega
    have h1 : ¬t.val % 4 = 3 := by show ¬(4 * i + 0) % 4 = 3; omega
    rw [outsAt0_A m c t h0 h1]
    dsimp only
    refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 p k)).trans ?_
    refine (tile_add m c t (k0_pay3 (F := Ideal)) p k).trans ?_
    rw [Payload.zero_apply]
    have eb : brow t p = b := Fin.ext (by show 32 * ((4 * i + 0) / 4) + p.val = b.val; omega)
    have et : tile t = ⟨0, hj⟩ := Fin.ext (by show (4 * i + 0) % 4 = 0; omega)
    rw [eb, et]
    rfl
  | j + 1, hj, h => by
    let t : Fin cfg0.N := ⟨4 * i + (j + 1), h⟩
    have ih : ((outsAt0 m c (t.val - 1) (Nat.lt_of_le_of_lt (Nat.sub_le _ _) t.isLt)).2 : Vec Ideal S32x256 .f32) (ix2 p k)
        = upTo (tileSum m c b k) j (Nat.lt_of_succ_lt hj) := acc_at c i p k b hb j (Nat.lt_of_succ_lt hj) (Nat.lt_of_succ_lt h)
    have h0 : ¬t.val % 4 = 0 := by show ¬(4 * i + (j + 1)) % 4 = 0; omega
    have eb : brow t p = b := Fin.ext (by show 32 * ((4 * i + (j + 1)) / 4) + p.val = b.val; omega)
    have et : tile t = ⟨j + 1, hj⟩ := Fin.ext (by show (4 * i + (j + 1)) % 4 = j + 1; omega)
    show ((outsAt0 m c t.val t.isLt).2 : Vec Ideal S32x256 .f32) (ix2 p k) = upTo (tileSum m c b k) j (Nat.lt_of_succ_lt hj) + tileSum m c b k ⟨j + 1, hj⟩
    by_cases h1 : t.val % 4 = 3
    · rw [outsAt0_C m c t h0 h1]
      dsimp only
      refine (congrFun (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2) (ix2 p k)).trans ?_
      refine (tile_add m c t _ p k).trans ?_
      rw [ih, eb, et]
    · rw [outsAt0_B m c t h0 h1]
      dsimp only
      refine (congrFun (Pieces.acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2) (ix2 p k)).trans ?_
      refine (tile_add m c t _ p k).trans ?_
      rw [ih, eb, et]

/-! ## The last tile of a batch block -/

/-- At the last tile the stored output block is the second network's payload of the accumulator the same run leaves. -/
theorem out_at_last (c : Dev nD) (t : Fin cfg0.N) (h0 : ¬t.val % 4 = 0) (h3 : t.val % 4 = 3) :
    ((outsAt0 m c t.val t.isLt).1 : Vec Ideal S32x128 .f32)
      = k0_pay2 ((outsAt0 m c t.val t.isLt).2) (b8 m c t) (b9 m c t) (b10 m c t) (b11 m c t) (b12 m c t) (b13 m c t) := by
  have e1 : ((outsAt0 m c t.val t.isLt).1 : Vec Ideal S32x128 .f32)
      = k0_pay2 (Pieces.accum (b0 m c t) (b1 m c t) (b2 m c t) (b3 m c t) (b4 m c t) (b5 m c t) (b6 m c t) (b7 m c t) (b8 m c t) (b9 m c t) (b10 m c t) (b11 m c t) (b12 m c t) (b13 m c t) (outsAt0 m c (t.val - 1) (Nat.lt_of_le_of_lt (Nat.sub_le _ _) t.isLt)).2) (b8 m c t) (b9 m c t) (b10 m c t) (b11 m c t) (b12 m c t) (b13 m c t) := by
    rw [outsAt0_C m c t h0 h3]
    dsimp only
    exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2
  have e2 : ((outsAt0 m c t.val t.isLt).2 : Vec Ideal S32x256 .f32)
      = Pieces.accum (b0 m c t) (b1 m c t) (b2 m c t) (b3 m c t) (b4 m c t) (b5 m c t) (b6 m c t) (b7 m c t) (b8 m c t) (b9 m c t) (b10 m c t) (b11 m c t) (b12 m c t) (b13 m c t) (outsAt0 m c (t.val - 1) (Nat.lt_of_le_of_lt (Nat.sub_le _ _) t.isLt)).2 := by
    rw [outsAt0_C m c t h0 h3]
    dsimp only
    exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2
  rw [e1, e2]

/-- After the last tile, row p of the accumulator is the specification's pooled vector of its batch row. -/
theorem acc_last_row (c : Dev nD) (t : Fin cfg0.N) (h3 : t.val % 4 = 3) (p : Fin 32) :
    row ((outsAt0 m c t.val t.isLt).2 : Vec Ideal S32x256 .f32) p
      = pooled (kparams m c) (m ((c : Thread nD τ).loc main_arg0)) (maskf m c) (brow t p) := by
  funext k
  have hlt : 4 * (t.val / 4) + 3 < cfg0.N := by rw [show 4 * (t.val / 4) + 3 = t.val by omega]; exact t.isLt
  have key := acc_at m c (t.val / 4) p k (brow t p) rfl 3 (by decide) hlt
  have same : ∀ (n : ℕ) (hn : n < cfg0.N), n = t.val →
      ((outsAt0 m c n hn).2 : Vec Ideal S32x256 .f32) = (outsAt0 m c t.val t.isLt).2 := fun n hn e => by subst e; rfl
  show ((outsAt0 m c t.val t.isLt).2 : Vec Ideal S32x256 .f32) (ix2 p k) = _
  rw [← same _ hlt (by omega), key, upTo_three, sum_tileSum]

end Cert.KernelIdeal.Accum

end
-- ==== Proof.Final.lean ====
/-
  The result array of the kernel region, the empty-row test after it, and the whole run read.

  The output block is written back only after the last tile of a batch block, at the points 4·i + 3; point 4·i + 3 writes
  rows 32·i … 32·i + 31, so those eight points cover the [256, 128] result array, and what each writes is its block of ONE
  array: the specification's result. After the region the program computes, per batch row, whether any mask bit is set, and
  keeps the region's result on those rows and zero on the others.
-/
import proofs.«180472_j747324309661_1_alg».proof.Proof.Accum

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.DeepSet Cert.LibDense Cert.KernelIdeal.Blocks Cert.KernelIdeal.Accum

variable (m : (ℓ : Loc nD τ sig) → Buf (Elt Ideal) ℓ) (ρ : Dev nD → PrngReg)

/-- The region's result array: the specification's result of the launch arrays. -/
abbrev pre (c : Dev nD) : S256x128.Idx → EReal :=
  result (kparams m c) (m ((c : Thread nD τ).loc main_arg0)) (maskf m c)

theorem idx_out : ∀ t : Fin cfg0.N, win0_14.index t 0 = t.val / 4 ∧ win0_14.index t 1 = 0 :=
  (by decide +kernel : ∀ t : Fin grid0.N, win0_14.index t 0 = t.val / 4 ∧ win0_14.index t 1 = 0)

/-- What a writing point writes back is its block of the specification's result. -/
theorem flushed_eq (c : Dev nD) (t : Fin cfg0.N) (hf : (cfg0.win 14).flush t = true) :
    (dats m 0 c).flushed 14 t = ((cfg0.win 14).blk t).view.read (Elt Ideal) (pre m c) := by
  have h3 : t.val % 4 = 3 := (flush0_14 t).mp hf
  have h0 : ¬t.val % 4 = 0 := by omega
  show (cfg0.win 14).cut (grid0.coords t) ((dats m 0 c).after 14 t) = _
  rw [after0_14, out_at_last m c t h0 h3]
  funext y
  obtain ⟨p, o, rfl⟩ : ∃ (p : Fin 32) (o : Fin 128), y = ix2 p o := ⟨y 0, y 1, eq_ix2 y⟩
  show k0_pay2 ((outsAt0 m c t.val t.isLt).2) (b8 m c t) (b9 m c t) (b10 m c t) (b11 m c t) (b12 m c t) (b13 m c t) (ix2 p o)
      = pre m c (((cfg0.win 14).blk t).view.emb (ix2 p o))
  refine (out_block m c t _ p o).trans ?_
  rw [acc_last_row m c t h3 p]
  have e0 : ((cfg0.win 14).blk t).view.emb (ix2 p o) = ix2 (brow t p) o := funext fun a => Fin.ext (by
    match a with
    | ⟨0, _⟩ => show win0_14.index t 0 * 32 + 1 * p.val = 32 * (t.val / 4) + p.val; rw [(idx_out t).1]; omega
    | ⟨1, _⟩ => show win0_14.index t 1 * 128 + 1 * o.val = o.val; rw [(idx_out t).2]; omega)
  rw [e0]
  rfl

/-- An index of the result array is in point t's block iff each coordinate is in the block's range on its axis. -/
theorem mem_blk (t : Fin cfg0.N) (i : S256x128.Idx) :
    i ∈ ((cfg0.win 14).blk t).view.set ↔ ∀ a : Fin 2, win0_14.index t a * S32x128.size a ≤ (i a).val ∧ (i a).val < win0_14.index t a * S32x128.size a + S32x128.size a := by
  show i ∈ ((View.whole main_v8).slice (win0_14.rect t)).set ↔ _
  rw [View.set_slice_whole, Rect.mem_set_unit]
  exact Iff.rfl

/-- Row r of the result array is written by the last tile of batch block r / 32. -/
theorem cover (i : S256x128.Idx) : ∃ t : Fin cfg0.N, (cfg0.win 14).flush t = true ∧ i ∈ ((cfg0.win 14).blk t).view.set := by
  have hi0 : (i 0).val < 256 := (i 0).isLt
  have hi1 : (i 1).val < 128 := (i 1).isLt
  let t : Fin cfg0.N := ⟨4 * ((i 0).val / 32) + 3, by rw [N32]; omega⟩
  have ht : t.val = 4 * ((i 0).val / 32) + 3 := rfl
  refine ⟨t, (flush0_14 t).mpr (by rw [ht]; omega), ?_⟩
  rw [mem_blk]
  obtain ⟨e0, e1⟩ := idx_out t
  intro a
  match a with
  | ⟨0, _⟩ => show win0_14.index t 0 * 32 ≤ (i 0).val ∧ (i 0).val < win0_14.index t 0 * 32 + 32; omega
  | ⟨1, _⟩ => show win0_14.index t 1 * 128 ≤ (i 1).val ∧ (i 1).val < win0_14.index t 1 * 128 + 128; omega

/-- So the result array ends holding the specification's result. -/
theorem final (c : Dev nD) : (dats m 0 c).arrAt 14 cfg0.N = pre m c :=
  (dats m 0 c).arrAt_eq_of_cover 14 (pre m c) (flushed_eq m c) (cover)

/-- The empty-row test: the array on the batch rows that have a set mask bit, zero on the others. -/
def keepNonEmpty (mask : (⟨S256x1024, .i1⟩ : BufTy).Contents (Elt Ideal)) (o : (⟨S256x128, .f32⟩ : BufTy).Contents (Elt Ideal)) :
    (⟨S256x128, .f32⟩ : BufTy).Contents (Elt Ideal) :=
  select (broadcastInDim S256x128 ![0, 1] bcast_S256x1_S256x128_0_1 (broadcastInDim S256x1 ![0] bcast_S256_S256x1_0
      (Host.reduce IntOp.ori mask (constantI S_ 1 0#1) reducesTo_S256x1024_S256_d1 h_S_)))
    o (broadcastInDim S256x128 ![] bcast_S_S256x128 (constant (F := Ideal) S_ .f32 0x00000000#32))

/-- What the program's last lines leave in the result buffer. -/
theorem tail_eq (c : Dev nD) :
    Pipeline.afterTail₀ cfgs (dats m) 0 (V0 m) [hostOps1, hostOps1_1] c main_v11
      = keepNonEmpty (m ((c : Thread nD τ).loc main_arg1)) (pre m c) := by
  unfold Pipeline.afterTail₀
  simp only [hostOps1, hostOps1_1, List.flatten_cons, List.flatten_nil, List.append_nil, List.cons_append, List.nil_append]
  after_results
  simp only [StableHlo.TRef.ofBuf, StableHlo.TRef.toBuf, cast_eq]
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e8 : Pipeline.withArrays (cfgs 0).spec c (V0 m c) (fun w => (dats m 0 c).arrAt w (cfgs 0).N) (Proc.devRef .tc main_v8)
      = pre m c :=
    (Pipeline.withArrays_arr spec0 launch0.win.arr_inj c (V0 m c) _ 14).trans (final m c)
  rw [e1, e8]
  rfl

/-- The run, read: the result buffer at the kept specification result, the arguments unchanged. -/
theorem run : θ_run defs (onTc (τ := τ) (main (F := Ideal))) ⟨m, fun _ => 0, ρ⟩ fun r => ∀ c : Dev nD,
      r.2.mem ((c.tc : Thread nD τ).loc main_v11) = keepNonEmpty (m ((c : Thread nD τ).loc main_arg1)) (pre m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c))⟩) (run_main m ρ)

end Cert.KernelIdeal.Final

end
-- ==== Proof.RefValue.lean ====
/-
  The reference's result before its empty-row test, read index by index: it is the specification's function.

  The reference applies the three affine layers of the per-element network to every element of every batch row (each a
  contraction of the last axis with a weight matrix plus a bias broadcast over the other axes, the first two followed by a
  maximum with zero), multiplies by the mask converted to a float and broadcast over the 256 outputs, sums over the 1024
  elements from the zero word — 0 + ∑ over the elements — and applies the three affine layers of the second network to the
  sums. Read at (b, o) that is the second network of the pooled vector of row b at output o; the leading 0 + is absorbed.
-/
import proofs.«180472_j747324309661_1_alg».proof.Proof.RefRead
import proofs.«180472_j747324309661_1_alg».proof.Proof.Spec

noncomputable section

open scoped BigOperators

namespace Cert.ReferenceIdeal.RefValue

open Idealize.ShloMosaic Idealize.ShloMosaic.ValueIdx Cert.ReferenceIdeal Cert.ReferenceIdeal.Gen Cert.DeepSet

/-- The reference's weights and biases, as the specification's parameters. -/
def params (x2 : (⟨S64x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) : Params :=
  ⟨mat x2, vec x3, mat x4, vec x5, mat x6, vec x7, mat x8, vec x9, mat x10, vec x11, mat x12, vec x13⟩

section Stages

variable (x0 : (⟨S256x1024x64, .f32⟩ : BufTy).Contents (Elt Ideal)) (x1 : (⟨S256x1024, .i1⟩ : BufTy).Contents (Elt Ideal))
  (x2 : (⟨S64x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x128, .f32⟩ : BufTy).Contents (Elt Ideal)) (x13 : (⟨S128, .f32⟩ : BufTy).Contents (Elt Ideal))

local notation "𝐏" => params x2 x3 x4 x5 x6 x7 x8 x9 x10 x11 x12 x13

/-! ### One affine layer, read off a contraction plus a broadcast bias

A contraction's element is ∑ d, l d * r d and the bias element is c. When l is the row v, r is column k of the weight
array and c is entry k of the bias array, the sum plus the bias is the affine layer of v at k; its maximum with zero is
the layer followed by max(·, 0). -/

theorem affine_read {D H : ℕ} (w : (⟨2, ![D, H]⟩ : Shape).Idx → EReal) (β : (⟨1, ![H]⟩ : Shape).Idx → EReal)
    (v : Fin D → EReal) (k : Fin H) (l r : Fin D → EReal) (c : EReal)
    (hl : ∀ d, l d = v d) (hr : ∀ d, r d = w (ix2 d k)) (hc : c = β (ix1 k)) :
    (∑ d : Fin D, l d * r d) + c = affine (mat w) (vec β) v k := by
  have hs : ∑ d : Fin D, l d * r d = ∑ d : Fin D, v d * w (ix2 d k) :=
    Finset.sum_congr rfl fun d _ => by rw [hl d, hr d]
  rw [hs, hc]
  rfl

theorem relu_affine_read {D H : ℕ} (w : (⟨2, ![D, H]⟩ : Shape).Idx → EReal) (β : (⟨1, ![H]⟩ : Shape).Idx → EReal)
    (v : Fin D → EReal) (k : Fin H) (l r : Fin D → EReal) (c : EReal)
    (hl : ∀ d, l d = v d) (hr : ∀ d, r d = w (ix2 d k)) (hc : c = β (ix1 k)) :
    max ((∑ d : Fin D, l d * r d) + c) 0 = relu (affine (mat w) (vec β) v) k :=
  congrArg (fun t : EReal => max t 0) (affine_read w β v k l r c hl hr hc)

/-! ### The per-element network at (b, n, k)

Each contraction reads its left operand at (b, n, d) and the weight at (d, k); each bias, broadcast twice, is read at k. -/

theorem lidx0 (b : Fin 256) (n : Fin 1024) (k : Fin 256) (d : Fin 64) :
    ReadP.lidx_main_v0 (ix3 b n k) d = ix3 b n d :=
  funext fun a => Fin.ext (by match a with | ⟨0, _⟩ => rfl | ⟨1, _⟩ => rfl | ⟨2, _⟩ => rfl)
theorem ridx0 (b : Fin 256) (n : Fin 1024) (k : Fin 256) (d : Fin 64) :
    ReadP.ridx_main_v0 (ix3 b n k) d = ix2 d k :=
  funext fun a => Fin.ext (by match a with | ⟨0, _⟩ => rfl | ⟨1, _⟩ => rfl)
theorem bias1 (b : Fin 256) (n : Fin 1024) (k : Fin 256) :
    ReadP.idx_main_v1 (ReadP.idx_main_v2 (ix3 b n k)) = ix1 k :=
  funext fun a => Fin.ext (by match a with | ⟨0, _⟩ => rfl)
theorem lidx5 (b : Fin 256) (n : Fin 1024) (k : Fin 256) (d : Fin 256) :
    ReadP.lidx_main_v5 (ix3 b n k) d = ix3 b n d :=
  funext fun a => Fin.ext (by match a with | ⟨0, _⟩ => rfl | ⟨1, _⟩ => rfl | ⟨2, _⟩ => rfl)
theorem ridx5 (b : Fin 256) (n : Fin 1024) (k : Fin 256) (d : Fin 256) :
    ReadP.ridx_main_v5 (ix3 b n k) d = ix2 d k :=
  funext fun a => Fin.ext (by match a with | ⟨0, _⟩ => rfl | ⟨1, _⟩ => rfl)
theorem bias6 (b : Fin 256) (n : Fin 1024) (k : Fin 256) :
    ReadP.idx_main_v6 (ReadP.idx_main_v7 (ix3 b n k)) = ix1 k :=
  funext fun a => Fin.ext (by match a with | ⟨0, _⟩ => rfl)
theorem lidx10 (b : Fin 256) (n : Fin 1024) (k : Fin 256) (d : Fin 256) :
    ReadP.lidx_main_v10 (ix3 b n k) d = ix3 b n d :=
  funext fun a => Fin.ext (by match a with | ⟨0, _⟩ => rfl | ⟨1, _⟩ => rfl | ⟨2, _⟩ => rfl)
theorem ridx10 (b : Fin 256) (n : Fin 1024) (k : Fin 256) (d : Fin 256) :
    ReadP.ridx_main_v10 (ix3 b n k) d = ix2 d k :=
  funext fun a => Fin.ext (by match a with | ⟨0, _⟩ => rfl | ⟨1, _⟩ => rfl)
theorem bias11 (b : Fin 256) (n : Fin 1024) (k : Fin 256) :
    ReadP.idx_main_v11 (ReadP.idx_main_v12 (ix3 b n k)) = ix1 k :=
  funext fun a => Fin.ext (by match a with | ⟨0, _⟩ => rfl)

/-- The first layer followed by max(·, 0). -/
theorem layer1 (b : Fin 256) (n : Fin 1024) (k : Fin 256) :
    ReadP.val_main_v4 (F := Ideal) x0 x2 x3 (ix3 b n k)
      = relu (affine (mat x2) (vec x3) (fun d => x0 (ix3 b n d))) k := by
  rw [ReadP.val_main_v4_apply, ReadP.val_main_call0_v0_apply, ReadP.val_main_call0_cst_apply, ReadP.val_main_v3_apply,
    ReadP.val_main_v0_apply, ReadP.val_main_v2_apply, ReadP.val_main_v1_apply,
    Ideal.maximumf_def, Ideal.addf_def, Ideal.ofBits_def, Ideal.ofBits_zero_f32]
  exact relu_affine_read x2 x3 _ k _ _ _ (fun d => congrArg x0 (lidx0 b n k d))
    (fun d => congrArg x2 (ridx0 b n k d)) (congrArg x3 (bias1 b n k))

/-- The second layer followed by max(·, 0). -/
theorem layer2 (b : Fin 256) (n : Fin 1024) (k : Fin 256) :
    ReadP.val_main_v9 (F := Ideal) x0 x2 x3 x4 x5 (ix3 b n k)
      = relu (affine (mat x4) (vec x5) (relu (affine (mat x2) (vec x3) (fun d => x0 (ix3 b n d))))) k := by
  rw [ReadP.val_main_v9_apply, ReadP.val_main_call1_v0_apply, ReadP.val_main_call1_cst_apply, ReadP.val_main_v8_apply,
    ReadP.val_main_v5_apply, ReadP.val_main_v7_apply, ReadP.val_main_v6_apply,
    Ideal.maximumf_def, Ideal.addf_def, Ideal.ofBits_def, Ideal.ofBits_zero_f32]
  exact relu_affine_read x4 x5 _ k _ _ _
    (fun d => (congrArg (ReadP.val_main_v4 (F := Ideal) x0 x2 x3) (lidx5 b n k d)).trans (layer1 x0 x2 x3 b n d))
    (fun d => congrArg x4 (ridx5 b n k d)) (congrArg x5 (bias6 b n k))

/-- The third layer: the per-element network of element n of row b, at output k. -/
theorem layer3 (b : Fin 256) (n : Fin 1024) (k : Fin 256) :
    ReadP.val_main_v13 (F := Ideal) x0 x2 x3 x4 x5 x6 x7 (ix3 b n k) = phi 𝐏 (fun d => x0 (ix3 b n d)) k := by
  show _ = affine (mat x6) (vec x7)
    (relu (affine (mat x4) (vec x5) (relu (affine (mat x2) (vec x3) (fun d => x0 (ix3 b n d)))))) k
  rw [ReadP.val_main_v13_apply, ReadP.val_main_v10_apply, ReadP.val_main_v12_apply, ReadP.val_main_v11_apply,
    Ideal.addf_def]
  exact affine_read x6 x7 _ k _ _ _
    (fun d => (congrArg (ReadP.val_main_v9 (F := Ideal) x0 x2 x3 x4 x5) (lidx10 b n k d)).trans
      (layer2 x0 x2 x3 x4 x5 b n d))
    (fun d => congrArg x6 (ridx10 b n k d)) (congrArg x7 (bias11 b n k))

/-! ### The mask and the sum over the elements

The mask, converted and broadcast over the outputs, is read at (b, n); the sum over the elements starts from zero. -/

theorem maskidx (b : Fin 256) (n : Fin 1024) (k : Fin 256) :
    ReadP.idx_main_v15 (ReadP.idx_main_v16 (ix3 b n k)) = ix2 b n :=
  funext fun a => Fin.ext (by match a with | ⟨0, _⟩ => rfl | ⟨1, _⟩ => rfl)

theorem poolidx (b : Fin 256) (k : Fin 256) (n : Fin 1024) :
    ReadP.idx_main_v18 (ix2 b k) n = ix3 b n k :=
  funext fun a => Fin.ext (by match a with | ⟨0, _⟩ => rfl | ⟨1, _⟩ => rfl | ⟨2, _⟩ => rfl)

/-- The masked element: the per-element network's output times the mask value. -/
theorem masked (b : Fin 256) (n : Fin 1024) (k : Fin 256) :
    ReadP.val_main_v17 (F := Ideal) x0 x1 x2 x3 x4 x5 x6 x7 (ix3 b n k) = term 𝐏 x0 (uitofp (F := Ideal) .f32 x1) b k n := by
  rw [ReadP.val_main_v17_apply, ReadP.val_main_v16_apply, ReadP.val_main_v15_apply, Ideal.mulf_def,
    layer3 x0 x2 x3 x4 x5 x6 x7 x8 x9 x10 x11 x12 x13 b n k, maskidx b n k]
  rfl

/-- The sum over the elements from the zero word is the pooled vector. -/
theorem pooled_read (b : Fin 256) (k : Fin 256) :
    ReadP.val_main_v18 (F := Ideal) x0 x1 x2 x3 x4 x5 x6 x7 (ix2 b k) = pooled 𝐏 x0 (uitofp (F := Ideal) .f32 x1) b k := by
  rw [ReadP.val_main_v18_apply, ReadP.val_main_cst_apply, Ideal.ofBits_def, Ideal.ofBits_zero_f32, zero_add]
  exact Finset.sum_congr rfl fun n _ =>
    (congrArg (ReadP.val_main_v17 (F := Ideal) x0 x1 x2 x3 x4 x5 x6 x7) (poolidx b k n)).trans
      (masked x0 x1 x2 x3 x4 x5 x6 x7 x8 x9 x10 x11 x12 x13 b n k)

/-! ### The second network at (b, o)

Each contraction reads its left operand at (b, k) and the weight at (k, o); each bias is read at o. -/

theorem lidx19 (b : Fin 256) (o : Fin 256) (k : Fin 256) :
    ReadP.lidx_main_v19 (ix2 b o) k = ix2 b k :=
  funext fun a => Fin.ext (by match a with | ⟨0, _⟩ => rfl | ⟨1, _⟩ => rfl)
theorem ridx19 (b : Fin 256) (o : Fin 256) (k : Fin 256) :
    ReadP.ridx_main_v19 (ix2 b o) k = ix2 k o :=
  funext fun a => Fin.ext (by match a with | ⟨0, _⟩ => rfl | ⟨1, _⟩ => rfl)
theorem bias20 (b : Fin 256) (o : Fin 256) :
    ReadP.idx_main_v20 (ReadP.idx_main_v21 (ix2 b o)) = ix1 o :=
  funext fun a => Fin.ext (by match a with | ⟨0, _⟩ => rfl)
theorem lidx24 (b : Fin 256) (o : Fin 256) (k : Fin 256) :
    ReadP.lidx_main_v24 (ix2 b o) k = ix2 b k :=
  funext fun a => Fin.ext (by match a with | ⟨0, _⟩ => rfl | ⟨1, _⟩ => rfl)
theorem ridx24 (b : Fin 256) (o : Fin 256) (k : Fin 256) :
    ReadP.ridx_main_v24 (ix2 b o) k = ix2 k o :=
  funext fun a => Fin.ext (by match a with | ⟨0, _⟩ => rfl | ⟨1, _⟩ => rfl)
theorem bias25 (b : Fin 256) (o : Fin 256) :
    ReadP.idx_main_v25 (ReadP.idx_main_v26 (ix2 b o)) = ix1 o :=
  funext fun a => Fin.ext (by match a with | ⟨0, _⟩ => rfl)
theorem lidx29 (b : Fin 256) (o : Fin 128) (k : Fin 256) :
    ReadP.lidx_main_v29 (ix2 b o) k = ix2 b k :=
  funext fun a => Fin.ext (by match a with | ⟨0, _⟩ => rfl | ⟨1, _⟩ => rfl)
theorem ridx29 (b : Fin 256) (o : Fin 128) (k : Fin 256) :
    ReadP.ridx_main_v29 (ix2 b o) k = ix2 k o :=
  funext fun a => Fin.ext (by match a with | ⟨0, _⟩ => rfl | ⟨1, _⟩ => rfl)
theorem bias30 (b : Fin 256) (o : Fin 128) :
    ReadP.idx_main_v30 (ReadP.idx_main_v31 (ix2 b o)) = ix1 o :=
  funext fun a => Fin.ext (by match a with | ⟨0, _⟩ => rfl)

/-- The first layer on the pooled vector, followed by max(·, 0). -/
theorem rho1 (b : Fin 256) (o : Fin 256) :
    ReadP.val_main_v23 (F := Ideal) x0 x1 x2 x3 x4 x5 x6 x7 x8 x9 (ix2 b o)
      = relu (affine (mat x8) (vec x9) (pooled 𝐏 x0 (uitofp (F := Ideal) .f32 x1) b)) o := by
  rw [ReadP.val_main_v23_apply, ReadP.val_main_call2_v0_apply, ReadP.val_main_call2_cst_apply, ReadP.val_main_v22_apply,
    ReadP.val_main_v19_apply, ReadP.val_main_v21_apply, ReadP.val_main_v20_apply,
    Ideal.maximumf_def, Ideal.addf_def, Ideal.ofBits_def, Ideal.ofBits_zero_f32]
  exact relu_affine_read x8 x9 _ o _ _ _
    (fun k => (congrArg (ReadP.val_main_v18 (F := Ideal) x0 x1 x2 x3 x4 x5 x6 x7) (lidx19 b o k)).trans
      (pooled_read x0 x1 x2 x3 x4 x5 x6 x7 x8 x9 x10 x11 x12 x13 b k))
    (fun k => congrArg x8 (ridx19 b o k)) (congrArg x9 (bias20 b o))

/-- The second layer, followed by max(·, 0). -/
theorem rho2 (b : Fin 256) (o : Fin 256) :
    ReadP.val_main_v28 (F := Ideal) x0 x1 x2 x3 x4 x5 x6 x7 x8 x9 x10 x11 (ix2 b o)
      = relu (affine (mat x10) (vec x11)
          (relu (affine (mat x8) (vec x9) (pooled 𝐏 x0 (uitofp (F := Ideal) .f32 x1) b)))) o := by
  rw [ReadP.val_main_v28_apply, ReadP.val_main_call3_v0_apply, ReadP.val_main_call3_cst_apply, ReadP.val_main_v27_apply,
    ReadP.val_main_v24_apply, ReadP.val_main_v26_apply, ReadP.val_main_v25_apply,
    Ideal.maximumf_def, Ideal.addf_def, Ideal.ofBits_def, Ideal.ofBits_zero_f32]
  exact relu_affine_read x10 x11 _ o _ _ _
    (fun k => (congrArg (ReadP.val_main_v23 (F := Ideal) x0 x1 x2 x3 x4 x5 x6 x7 x8 x9) (lidx24 b o k)).trans
      (rho1 x0 x1 x2 x3 x4 x5 x6 x7 x8 x9 x10 x11 x12 x13 b k))
    (fun k => congrArg x10 (ridx24 b o k)) (congrArg x11 (bias25 b o))

/-- The third layer: the second network of the pooled vector of row b, at output o. -/
theorem rho3 (b : Fin 256) (o : Fin 128) :
    ReadP.val_main_v32 (F := Ideal) x0 x1 x2 x3 x4 x5 x6 x7 x8 x9 x10 x11 x12 x13 (ix2 b o)
      = rho 𝐏 (pooled 𝐏 x0 (uitofp (F := Ideal) .f32 x1) b) o := by
  show _ = affine (mat x12) (vec x13) (relu (affine (mat x10) (vec x11)
    (relu (affine (mat x8) (vec x9) (pooled 𝐏 x0 (uitofp (F := Ideal) .f32 x1) b))))) o
  rw [ReadP.val_main_v32_apply, ReadP.val_main_v29_apply, ReadP.val_main_v31_apply, ReadP.val_main_v30_apply,
    Ideal.addf_def]
  exact affine_read x12 x13 _ o _ _ _
    (fun k => (congrArg (ReadP.val_main_v28 (F := Ideal) x0 x1 x2 x3 x4 x5 x6 x7 x8 x9 x10 x11) (lidx29 b o k)).trans
      (rho2 x0 x1 x2 x3 x4 x5 x6 x7 x8 x9 x10 x11 x12 x13 b k))
    (fun k => congrArg x12 (ridx29 b o k)) (congrArg x13 (bias30 b o))

end Stages

/-- The reference's value before the empty-row test is the specification's result of its arguments. -/
theorem pretail_eq (x0 : (⟨S256x1024x64, .f32⟩ : BufTy).Contents (Elt Ideal)) (x1 : (⟨S256x1024, .i1⟩ : BufTy).Contents (Elt Ideal)) (x2 : (⟨S64x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) :
    ReadP.val_main_v32 (F := Ideal) x0 x1 x2 x3 x4 x5 x6 x7 x8 x9 x10 x11 x12 x13
      = result (params x2 x3 x4 x5 x6 x7 x8 x9 x10 x11 x12 x13) x0 (uitofp (F := Ideal) .f32 x1) := by
  funext i
  obtain ⟨b, o, rfl⟩ : ∃ (b : Fin 256) (o : Fin 128), i = ix2 b o := ⟨i 0, i 1, eq_ix2 i⟩
  exact rho3 x0 x1 x2 x3 x4 x5 x6 x7 x8 x9 x10 x11 x12 x13 b o

end Cert.ReferenceIdeal.RefValue

end
-- ==== Proof.lean ====
/-
  The proof of `Cert.Claim` (proofs.«180472_j747324309661_1_alg».proof.Defs).

  Both programs compute, for each of 256 batch rows, a three-layer network on each of the row's 1024 set elements, multiply
  each element's 256 outputs by that element's 0/1 mask value, add over the elements, and apply a second three-layer network
  to the sum; rows whose mask is all zero are then set to zero. The kernel cuts the 1024 elements of 32 batch rows into four
  tiles of 256 and keeps a running sum across the four grid points of a batch block, starting it at zero and applying the
  second network after the last tile; the reference sums all 1024 at once from zero. Over the extended reals the two sums are
  one regrouped sum (0 + x = x; addition is commutative and associative), every narrowing of a float format is the identity,
  a matrix product into a zero accumulator is the contraction's sum, and the two empty-row tests are the same operations of
  the same mask: no finiteness of the inputs is used. The ideal pass rewrote nothing, so `preserves` is `True`. The frames
  of the two kernel programs are the generated ones; the reference's frame is its run with the result dropped.
-/
import proofs.«180472_j747324309661_1_alg».proof.Defs
import proofs.«180472_j747324309661_1_alg».proof.Proof.Gen.Kernel.Frame
import proofs.«180472_j747324309661_1_alg».proof.Proof.Gen.Pre_finite_inputs
import proofs.«180472_j747324309661_1_alg».proof.Proof.Final
import proofs.«180472_j747324309661_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the empty-row test applied to the specification's result of the same arrays. -/
theorem algebraic : Cert.algebraic_KernelIdeal_ReferenceIdeal := by
  intro m ρ m' ρ' _ hagree
  refine ⟨fun c => Cert.KernelIdeal.Final.keepNonEmpty (m ((c.tc : Thread Cert.KernelIdeal.nD Cert.KernelIdeal.τ).loc Cert.KernelIdeal.main_arg1)) (Cert.KernelIdeal.Final.pre m c),
    Cert.KernelIdeal.Final.run m ρ, ?_⟩
  refine (θ_run Cert.ReferenceIdeal.defs _ _).mono (fun _ h c => ⟨(h c).1.trans ?_, (h c).2⟩) (Cert.ReferenceIdeal.ValueP.run (F := Ideal) m' ρ')
  obtain ⟨a0, a1, a2, a3, a4, a5, a6, a7, a8, a9, a10, a11, a12, a13⟩ := hagree c
  rw [Cert.ReferenceIdeal.ReadP.val_main_v35_eq]
  unfold Cert.ReferenceIdeal.ReadP.val_main_v35
  rw [Cert.ReferenceIdeal.RefValue.pretail_eq, a0, a1, a2, a3, a4, a5, a6, a7, a8, a9, a10, a11, a12, a13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
